-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S32768x10 : Shape := ⟨2, ![32768, 10]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S32768x10 : S_.BroadcastsInDim S32768x10 (![] : Fin 0 → Fin S32768x10.rank)
  reducesTo_S32768x10_S_d0_1 : S32768x10.ReducesTo [0, 1] S_

variable [Facts]

def fn {F : FTy → Type} [FloatOps F] (main_arg0 : FVec F S32768x1000 .f32) (main_arg1 : IVec S32768x10 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_c_0 : IVec S_ 32 := constantI S_ 32 0#32
  let main_v4 : IVec S32768x10 32 := broadcastInDim S32768x10 ![] bcast_S_S32768x10 main_c_0
  let main_v5 : IVec S32768x10 1 := cmpi .sge main_arg1 main_v4
  let main_c_1 : IVec S_ 1 := constantI S_ 1 1#1
  let main_v6 : IVec S_ 1 := (fun x v => Host.reduce IntOp.andi x v reducesTo_S32768x10_S_d0_1 h_S_) main_v5 main_c_1
  let main_v7 : IVec S_ 1 := andi main_v3 main_v6
  let main_c_2 : IVec S_ 32 := constantI S_ 32 1000#32
  let main_v8 : IVec S32768x10 32 := broadcastInDim S32768x10 ![] bcast_S_S32768x10 main_c_2
  let main_v9 : IVec S32768x10 1 := cmpi .slt main_arg1 main_v8
  let main_c_3 : IVec S_ 1 := constantI S_ 1 1#1
  let main_v10 : IVec S_ 1 := (fun x v => Host.reduce IntOp.andi x v reducesTo_S32768x10_S_d0_1 h_S_) main_v9 main_c_3
  let main_v11 : IVec S_ 1 := andi main_v7 main_v10
  main_v11
-- ==== Kernel.lean ====
abbrev S32768x1000 : Shape := ⟨2, ![32768, 1000]⟩
abbrev S32768x10 : Shape := ⟨2, ![32768, 10]⟩
abbrev S32768x1 : Shape := ⟨2, ![32768, 1]⟩
abbrev S1024x1000 : Shape := ⟨2, ![1024, 1000]⟩
abbrev S1024x10 : Shape := ⟨2, ![1024, 10]⟩
abbrev S1024x1 : Shape := ⟨2, ![1024, 1]⟩
abbrev S1024 : Shape := ⟨1, ![1024]⟩
abbrev S1024x9 : Shape := ⟨2, ![1024, 9]⟩
abbrev S32768 : Shape := ⟨1, ![32768]⟩

abbrev nBuf : Space → Nat
  | .hbm => 4
  | .vmem => 6
  | .smem => 0
  | _ => 0

abbrev bufTy : (tb : Table) → Fin (tcTables nBuf tb) → BufTy
  | .hbm, ⟨0, _⟩ => ⟨S32768x1000, .f32⟩
  | .hbm, ⟨1, _⟩ => ⟨S32768x10, .i32⟩
  | .hbm, ⟨2, _⟩ => ⟨S32768x1, .f32⟩
  | .hbm, ⟨3, _⟩ => ⟨S32768, .f32⟩
  | .local _ .vmem, ⟨0, _⟩ => ⟨S1024x1000, .f32⟩
  | .local _ .vmem, ⟨1, _⟩ => ⟨S1024x1000, .f32⟩
  | .local _ .vmem, ⟨2, _⟩ => ⟨S1024x10, .i32⟩
  | .local _ .vmem, ⟨3, _⟩ => ⟨S1024x10, .i32⟩
  | .local _ .vmem, ⟨4, _⟩ => ⟨S1024x1, .f32⟩
  | .local _ .vmem, ⟨5, _⟩ => ⟨S1024x1, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1000_S1024x1000_0_0 : ∀ a, (![0, 0] : Fin 2 → Nat) a + S1024x1000.size a ≤ S1024x1000.size a
  h_S1024x1000 : 0 < S1024x1000.numel
  inb_S1024x10_S1024x10_0_0 : ∀ a, (![0, 0] : Fin 2 → Nat) a + S1024x10.size a ≤ S1024x10.size a
  h_S1024x10 : 0 < S1024x10.numel
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  slices_S1024x10_o0_0_S1024x1 : S1024x10.Slices ![0, 0] S1024x1
  slices_S1024x10_o0_1_S1024x1 : S1024x10.Slices ![0, 1] S1024x1
  slices_S1024x10_o0_2_S1024x1 : S1024x10.Slices ![0, 2] S1024x1
  slices_S1024x10_o0_3_S1024x1 : S1024x10.Slices ![0, 3] S1024x1
  slices_S1024x10_o0_4_S1024x1 : S1024x10.Slices ![0, 4] S1024x1
  slices_S1024x10_o0_5_S1024x1 : S1024x10.Slices ![0, 5] S1024x1
  slices_S1024x10_o0_6_S1024x1 : S1024x10.Slices ![0, 6] S1024x1
  slices_S1024x10_o0_7_S1024x1 : S1024x10.Slices ![0, 7] S1024x1
  slices_S1024x10_o0_8_S1024x1 : S1024x10.Slices ![0, 8] S1024x1
  slices_S1024x10_o0_9_S1024x1 : S1024x10.Slices ![0, 9] S1024x1
  concatenates_S1024x1_S1024x1_S1024x1_S1024x1_S1024x1_S1024x1_S1024x1_S1024x1_S1024x1_S1024x1_S1024x10_d1 : Shape.Concatenates [S1024x1, S1024x1, S1024x1, S1024x1, S1024x1, S1024x1, S1024x1, S1024x1, S1024x1, S1024x1] S1024x10 1
  reduces_S1024x10_S1024 : S1024x10.Reduces [1] S1024
  slices_S1024x10_o0_1_S1024x9 : S1024x10.Slices ![0, 1] S1024x9
  slices_S1024x10_o0_0_S1024x9 : S1024x10.Slices ![0, 0] S1024x9
  reduces_S1024x9_S1024 : S1024x9.Reduces [1] S1024
  inb_S1024x1_S1024x1_0_0 : ∀ a, (![0, 0] : Fin 2 → Nat) a + S1024x1.size a ≤ S1024x1.size a
  h_S1024x1 : 0 < S1024x1.numel
  shapeCasts_S32768x1_S32768 : S32768x1.ShapeCasts S32768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S32768x1000.size a
  hwx0_0 : ∀ i : grid0.Coords, EltTy.bits .f32 = 32 ∨ (Rect.block (s := S32768x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10.size a ≤ S32768x10.size a
  hwx0_1 : ∀ i : grid0.Coords, EltTy.bits .i32 = 32 ∨ (Rect.block (s := S32768x10) S1024x10.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S32768x10 : Shape := ⟨2, ![32768, 10]⟩
abbrev S_ : Shape := ⟨0, ![]⟩
abbrev S32768 : Shape := ⟨1, ![32768]⟩
abbrev S32768x1 : Shape := ⟨2, ![32768, 1]⟩
abbrev S32768x10x1 : Shape := ⟨3, ![32768, 10, 1]⟩
abbrev S1 : Shape := ⟨1, ![1]⟩
abbrev S1x1x1 : Shape := ⟨3, ![1, 1, 1]⟩
abbrev S32768x10x2 : Shape := ⟨3, ![32768, 10, 2]⟩
abbrev S32768x9 : Shape := ⟨2, ![32768, 9]⟩
abbrev S32768x2 : Shape := ⟨2, ![32768, 2]⟩

abbrev nBuf : Space → Nat
  | .hbm => 124
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768x10, .i32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S32768x1, .f32⟩
  | .hbm, ⟨8, _⟩ => ⟨S32768x1000, .f32⟩
  | .hbm, ⟨9, _⟩ => ⟨S32768x1000, .f32⟩
  | .hbm, ⟨10, _⟩ => ⟨S32768x1000, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1000, .f32⟩
  | .hbm, ⟨15, _⟩ => ⟨S32768x1000, .f32⟩
  | .hbm, ⟨16, _⟩ => ⟨S_, .i32⟩
  | .hbm, ⟨17, _⟩ => ⟨S32768x10, .i32⟩
  | .hbm, ⟨18, _⟩ => ⟨S32768x10, .i1⟩
  | .hbm, ⟨19, _⟩ => ⟨S_, .i32⟩
  | .hbm, ⟨20, _⟩ => ⟨S32768x10, .i32⟩
  | .hbm, ⟨21, _⟩ => ⟨S32768x10, .i32⟩
  | .hbm, ⟨22, _⟩ => ⟨S32768x10, .i32⟩
  | .hbm, ⟨23, _⟩ => ⟨S32768x10x1, .i32⟩
  | .hbm, ⟨24, _⟩ => ⟨S1, .i32⟩
  | .hbm, ⟨25, _⟩ => ⟨S_, .i32⟩
  | .hbm, ⟨26, _⟩ => ⟨S32768x10x1, .i32⟩
  | .hbm, ⟨27, _⟩ => ⟨S32768x10x1, .i1⟩
  | .hbm, ⟨28, _⟩ => ⟨S1x1x1, .i32⟩
  | .hbm, ⟨29, _⟩ => ⟨S32768x10x1, .i32⟩
  | .hbm, ⟨30, _⟩ => ⟨S32768x10x1, .i1⟩
  | .hbm, ⟨31, _⟩ => ⟨S32768x10x1, .i1⟩
  | .hbm, ⟨32, _⟩ => ⟨S_, .i1⟩
  | .hbm, ⟨33, _⟩ => ⟨S32768x10, .i1⟩
  | .hbm, ⟨34, _⟩ => ⟨S32768x10, .f32⟩
  | .hbm, ⟨35, _⟩ => ⟨S_, .f32⟩
  | .hbm, ⟨36, _⟩ => ⟨S32768x10, .f32⟩
  | .hbm, ⟨37, _⟩ => ⟨S32768x10, .f32⟩
  | .hbm, ⟨38, _⟩ => ⟨S32768, .i32⟩
  | .hbm, ⟨39, _⟩ => ⟨S32768x1, .i32⟩
  | .hbm, ⟨40, _⟩ => ⟨S_, .i1⟩
  | .hbm, ⟨41, _⟩ => ⟨S32768x1000, .i1⟩
  | .hbm, ⟨42, _⟩ => ⟨S_, .i32⟩
  | .hbm, ⟨43, _⟩ => ⟨S32768x1, .i32⟩
  | .hbm, ⟨44, _⟩ => ⟨S32768x1, .i1⟩
  | .hbm, ⟨45, _⟩ => ⟨S_, .i32⟩
  | .hbm, ⟨46, _⟩ => ⟨S32768x1, .i32⟩
  | .hbm, ⟨47, _⟩ => ⟨S32768x1, .i32⟩
  | .hbm, ⟨48, _⟩ => ⟨S32768x1, .i32⟩
  | .hbm, ⟨49, _⟩ => ⟨S_, .i32⟩
  | .hbm, ⟨50, _⟩ => ⟨S32768x10, .i32⟩
  | .hbm, ⟨51, _⟩ => ⟨S32768x10, .i1⟩
  | .hbm, ⟨52, _⟩ => ⟨S_, .i32⟩
  | .hbm, ⟨53, _⟩ => ⟨S32768x10, .i32⟩
  | .hbm, ⟨54, _⟩ => ⟨S32768x10, .i32⟩
  | .hbm, ⟨55, _⟩ => ⟨S32768x10, .i32⟩
  | .hbm, ⟨56, _⟩ => ⟨S32768x10, .i32⟩
  | .hbm, ⟨57, _⟩ => ⟨S32768x10x1, .i32⟩
  | .hbm, ⟨58, _⟩ => ⟨S32768x10x1, .i32⟩
  | .hbm, ⟨59, _⟩ => ⟨S32768x10x2, .i32⟩
  | .hbm, ⟨60, _⟩ => ⟨S_, .i1⟩
  | .hbm, ⟨61, _⟩ => ⟨S32768x10, .i1⟩
  | .hbm, ⟨62, _⟩ => ⟨S32768x1000, .i1⟩
  | .hbm, ⟨63, _⟩ => ⟨S_, .f32⟩
  | .hbm, ⟨64, _⟩ => ⟨S_, .f32⟩
  | .hbm, ⟨65, _⟩ => ⟨S32768x1000, .f32⟩
  | .hbm, ⟨66, _⟩ => ⟨S32768x1000, .f32⟩
  | .hbm, ⟨67, _⟩ => ⟨S_, .f32⟩
  | .hbm, ⟨68, _⟩ => ⟨S32768, .f32⟩
  | .hbm, ⟨69, _⟩ => ⟨S_, .f32⟩
  | .hbm, ⟨70, _⟩ => ⟨S32768, .f32⟩
  | .hbm, ⟨71, _⟩ => ⟨S32768, .f32⟩
  | .hbm, ⟨72, _⟩ => ⟨S32768x9, .f32⟩
  | .hbm, ⟨73, _⟩ => ⟨S32768x9, .f32⟩
  | .hbm, ⟨74, _⟩ => ⟨S32768x9, .f32⟩
  | .hbm, ⟨75, _⟩ => ⟨S_, .f32⟩
  | .hbm, ⟨76, _⟩ => ⟨S32768x9, .f32⟩
  | .hbm, ⟨77, _⟩ => ⟨S32768x9, .f32⟩
  | .hbm, ⟨78, _⟩ => ⟨S_, .f32⟩
  | .hbm, ⟨79, _⟩ => ⟨S32768x9, .f32⟩
  | .hbm, ⟨80, _⟩ => ⟨S32768x9, .f32⟩
  | .hbm, ⟨81, _⟩ => ⟨S_, .f32⟩
  | .hbm, ⟨82, _⟩ => ⟨S32768x9, .f32⟩
  | .hbm, ⟨83, _⟩ => ⟨S32768x9, .f32⟩
  | .hbm, ⟨84, _⟩ => ⟨S_, .f32⟩
  | .hbm, ⟨85, _⟩ => ⟨S32768, .f32⟩
  | .hbm, ⟨86, _⟩ => ⟨S_, .f32⟩
  | .hbm, ⟨87, _⟩ => ⟨S32768, .f32⟩
  | .hbm, ⟨88, _⟩ => ⟨S32768, .f32⟩
  | .hbm, ⟨89, _⟩ => ⟨S_, .f32⟩
  | .hbm, ⟨90, _⟩ => ⟨S32768, .f32⟩
  | .hbm, ⟨91, _⟩ => ⟨S32768, .f32⟩
  | .hbm, ⟨92, _⟩ => ⟨S_, .f32⟩
  | .hbm, ⟨93, _⟩ => ⟨S32768, .f32⟩
  | .hbm, ⟨94, _⟩ => ⟨S32768, .f32⟩
  | .hbm, ⟨95, _⟩ => ⟨S_, .f32⟩
  | .hbm, ⟨96, _⟩ => ⟨S32768, .f32⟩
  | .hbm, ⟨97, _⟩ => ⟨S32768, .f32⟩
  | .hbm, ⟨98, _⟩ => ⟨S32768x1, .f32⟩
  | .hbm, ⟨99, _⟩ => ⟨S32768x1, .f32⟩
  | .hbm, ⟨100, _⟩ => ⟨S32768x2, .f32⟩
  | .hbm, ⟨101, _⟩ => ⟨S_, .f32⟩
  | .hbm, ⟨102, _⟩ => ⟨S32768x2, .f32⟩
  | .hbm, ⟨103, _⟩ => ⟨S32768x2, .f32⟩
  | .hbm, ⟨104, _⟩ => ⟨S_, .f32⟩
  | .hbm, ⟨105, _⟩ => ⟨S32768x2, .f32⟩
  | .hbm, ⟨106, _⟩ => ⟨S32768x2, .f32⟩
  | .hbm, ⟨107, _⟩ => ⟨S_, .f32⟩
  | .hbm, ⟨108, _⟩ => ⟨S32768x2, .f32⟩
  | .hbm, ⟨109, _⟩ => ⟨S32768x2, .f32⟩
  | .hbm, ⟨110, _⟩ => ⟨S_, .f32⟩
  | .hbm, ⟨111, _⟩ => ⟨S32768, .f32⟩
  | .hbm, ⟨112, _⟩ => ⟨S_, .f32⟩
  | .hbm, ⟨113, _⟩ => ⟨S32768, .f32⟩
  | .hbm, ⟨114, _⟩ => ⟨S32768, .f32⟩
  | .hbm, ⟨115, _⟩ => ⟨S_, .f32⟩
  | .hbm, ⟨116, _⟩ => ⟨S32768, .f32⟩
  | .hbm, ⟨117, _⟩ => ⟨S32768, .f32⟩
  | .hbm, ⟨118, _⟩ => ⟨S_, .f32⟩
  | .hbm, ⟨119, _⟩ => ⟨S32768, .f32⟩
  | .hbm, ⟨120, _⟩ => ⟨S32768, .f32⟩
  | .hbm, ⟨121, _⟩ => ⟨S_, .f32⟩
  | .hbm, ⟨122, _⟩ => ⟨S32768, .f32⟩
  | .hbm, ⟨123, _⟩ => ⟨S32768, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_6 : Ref sig .tc := ⟨.hbm, 60, rfl⟩
abbrev main_v29 : Ref sig .tc := ⟨.hbm, 61, rfl⟩
abbrev main_v30 : Ref sig .tc := ⟨.hbm, 62, rfl⟩
abbrev main_cst_7 : Ref sig .tc := ⟨.hbm, 63, rfl⟩
abbrev main_call1_v0 : Ref sig .tc := ⟨.hbm, 64, rfl⟩
abbrev main_call1_v1 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_call2_v0 : Ref sig .tc := ⟨.hbm, 72, rfl⟩
abbrev main_call2_v1 : Ref sig .tc := ⟨.hbm, 73, rfl⟩
abbrev main_v35 : Ref sig .tc := ⟨.hbm, 74, rfl⟩
abbrev main_cst_10 : Ref sig .tc := ⟨.hbm, 75, rfl⟩
abbrev main_v36 : Ref sig .tc := ⟨.hbm, 76, rfl⟩
abbrev main_v37 : Ref sig .tc := ⟨.hbm, 77, rfl⟩
abbrev main_cst_11 : Ref sig .tc := ⟨.hbm, 78, rfl⟩
abbrev main_v38 : Ref sig .tc := ⟨.hbm, 79, rfl⟩
abbrev main_v39 : Ref sig .tc := ⟨.hbm, 80, rfl⟩
abbrev main_cst_12 : Ref sig .tc := ⟨.hbm, 81, rfl⟩
abbrev main_v40 : Ref sig .tc := ⟨.hbm, 82, rfl⟩
abbrev main_v41 : Ref sig .tc := ⟨.hbm, 83, rfl⟩
abbrev main_cst_13 : Ref sig .tc := ⟨.hbm, 84, rfl⟩
abbrev main_v42 : Ref sig .tc := ⟨.hbm, 85, rfl⟩
abbrev main_cst_14 : Ref sig .tc := ⟨.hbm, 86, rfl⟩
abbrev main_v43 : Ref sig .tc := ⟨.hbm, 87, rfl⟩
abbrev main_v44 : Ref sig .tc := ⟨.hbm, 88, rfl⟩
abbrev main_cst_15 : Ref sig .tc := ⟨.hbm, 89, rfl⟩
abbrev main_v45 : Ref sig .tc := ⟨.hbm, 90, rfl⟩
abbrev main_v46 : Ref sig .tc := ⟨.hbm, 91, rfl⟩
abbrev main_cst_16 : Ref sig .tc := ⟨.hbm, 92, rfl⟩
abbrev main_v47 : Ref sig .tc := ⟨.hbm, 93, rfl⟩
abbrev main_v48 : Ref sig .tc := ⟨.hbm, 94, rfl⟩
abbrev main_cst_17 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_18 : Ref sig .tc := ⟨.hbm, 101, rfl⟩
abbrev main_v54 : Ref sig .tc := ⟨.hbm, 102, rfl⟩
abbrev main_v55 : Ref sig .tc := ⟨.hbm, 103, rfl⟩
abbrev main_cst_19 : Ref sig .tc := ⟨.hbm, 104, rfl⟩
abbrev main_v56 : Ref sig .tc := ⟨.hbm, 105, rfl⟩
abbrev main_v57 : Ref sig .tc := ⟨.hbm, 106, rfl⟩
abbrev main_cst_20 : Ref sig .tc := ⟨.hbm, 107, rfl⟩
abbrev main_v58 : Ref sig .tc := ⟨.hbm, 108, rfl⟩
abbrev main_v59 : Ref sig .tc := ⟨.hbm, 109, rfl⟩
abbrev main_cst_21 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_cst_23 : Ref sig .tc := ⟨.hbm, 115, rfl⟩
abbrev main_v63 : Ref sig .tc := ⟨.hbm, 116, rfl⟩
abbrev main_v64 : Ref sig .tc := ⟨.hbm, 117, rfl⟩
abbrev main_cst_24 : Ref sig .tc := ⟨.hbm, 118, rfl⟩
abbrev main_v65 : Ref sig .tc := ⟨.hbm, 119, rfl⟩
abbrev main_v66 : Ref sig .tc := ⟨.hbm, 120, rfl⟩
abbrev main_cst_25 : Ref sig .tc := ⟨.hbm, 121, rfl⟩
abbrev main_v67 : Ref sig .tc := ⟨.hbm, 122, rfl⟩
abbrev main_v68 : Ref sig .tc := ⟨.hbm, 123, rfl⟩

abbrev nD : Nat := 1
abbrev τ : Topo := Topo.v7x

variable {F : FTy → Type} [FloatOps F]

class Facts₀ : Prop where
  reducesTo_S32768x1000_S32768_d1 : S32768x1000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S_S32768x10 : S_.BroadcastsInDim S32768x10 (![] : Fin 0 → Fin S32768x10.rank)
  shapeCasts_S32768x10_S32768x10x1 : S32768x10.ShapeCasts S32768x10x1
  bcast_S_S32768x10x1 : S_.BroadcastsInDim S32768x10x1 (![] : Fin 0 → Fin S32768x10x1.rank)
  bcast_S1_S1x1x1_2 : S1.BroadcastsInDim S1x1x1 (![2] : Fin 1 → Fin S1x1x1.rank)
  bcast_S1x1x1_S32768x10x1_0_1_2 : S1x1x1.BroadcastsInDim S32768x10x1 (![0, 1, 2] : Fin 3 → Fin S32768x10x1.rank)
  reducesTo_S32768x10x1_S32768x10_d2 : S32768x10x1.ReducesTo [2] S32768x10
  bcast_S_S32768x1000 : S_.BroadcastsInDim S32768x1000 (![] : Fin 0 → Fin S32768x1000.rank)
  bcast_S_S32768x1 : S_.BroadcastsInDim S32768x1 (![] : Fin 0 → Fin S32768x1.rank)
  bcast_S32768x1_S32768x10_0_1 : S32768x1.BroadcastsInDim S32768x10 (![0, 1] : Fin 2 → Fin S32768x10.rank)
  bcast_S32768x10_S32768x10x1_0_1 : S32768x10.BroadcastsInDim S32768x10x1 (![0, 1] : Fin 2 → Fin S32768x10x1.rank)
  concatenates_S32768x10x1_S32768x10x1_S32768x10x2_d2 : Shape.Concatenates [S32768x10x1, S32768x10x1] S32768x10x2 2
  reducesTo_S32768x10_S32768_d1 : S32768x10.ReducesTo [1] S32768
  slices_S32768x10_S32768x9_0_1 : S32768x10.Slices ![0, 1] S32768x9
  slices_S32768x10_S32768x9_0_0 : S32768x10.Slices ![0, 0] S32768x9
  bcast_S_S32768x9 : S_.BroadcastsInDim S32768x9 (![] : Fin 0 → Fin S32768x9.rank)
  reducesTo_S32768x9_S32768_d1 : S32768x9.ReducesTo [1] S32768
  concatenates_S32768x1_S32768x1_S32768x2_d1 : Shape.Concatenates [S32768x1, S32768x1] S32768x2 1
  bcast_S_S32768x2 : S_.BroadcastsInDim S32768x2 (![] : Fin 0 → Fin S32768x2.rank)
  reducesTo_S32768x2_S32768_d1 : S32768x2.ReducesTo [1] S32768
  gather_S32768x1000_S32768x10x1_S32768x10_n_1_0_0_1_2_11_wf : GatherDims.WF S32768x1000 S32768x10x1 S32768x10 [] [1] [0] [1] [0] 2 ![1, 1]
  scatter_S32768x1000_S32768x10x2_S32768x10_n_01_01_2_wf : ScatterDims.WF S32768x1000 S32768x10x2 S32768x10 [] [0, 1] [0, 1] 2

variable [Facts₀]

def gather_S32768x1000_S32768x10x1_S32768x10_n_1_0_0_1_2_11 : GatherDims S32768x1000 S32768x10x1 S32768x10 where
  offsetDims := []
  collapsedSliceDims := [1]
  operandBatchingDims := [0]
  startIndicesBatchingDims := [0]
  startIndexMap := [1]
  indexVectorDim := 2
  sliceSizes := ![1, 1]
  wf := gather_S32768x1000_S32768x10x1_S32768x10_n_1_0_0_1_2_11_wf
def scatter_S32768x1000_S32768x10x2_S32768x10_n_01_01_2 : ScatterDims S32768x1000 S32768x10x2 S32768x10 where
  updateWindowDims := []
  insertedWindowDims := [0, 1]
  scatterDimsToOperandDims := [0, 1]
  indexVectorDim := 2
  wf := scatter_S32768x1000_S32768x10x2_S32768x10_n_01_01_2_wf

class Facts : Prop extends Facts₀ where

variable [Facts]
-- ==== Proof.RefRunEq.lean ====
/-
  The reference's run ends with its result at the last stage of the stage-by-stage reading: the fold of the 122 operations over the
  launch contents, read at the returned buffer, is the composition of the operations' functions applied to the two arguments.

  Each operation's result at its own buffer is its function of its operands' contents, and at any other buffer what was there
  before; applied from the returned buffer inwards this unfolds the fold to the nested term. The two concatenates take their operands
  in a list of (shape, vector) pairs whose shapes a side condition speaks of; read as a function of the two vectors alone, a
  concatenate's operands unfold like any other operation's.
-/
import proofs.«415077_j32014686224515_3_alg».proof.Proof.RefRead

noncomputable section

namespace Cert.Loss.RefRunEq

open Cert.ReferenceIdeal Cert.ReferenceIdeal.Gen Idealize.ShloMosaic Idealize.ShloMosaic.TcCoe Idealize.SL.Sem Idealize.ShloMosaic.StableHlo

variable {F : FTy → Type} [FloatOps F]

/-- A two-piece concatenate as a function of its two pieces. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The concatenate of a two-element list of pieces is that function of the two. -/
theorem cat2_fold {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = cat2 t a s₁ s₂ (show Shape.Concatenates [s₁, s₂] t a from h) x y := rfl

set_option maxRecDepth 65536 in
set_option maxHeartbeats 48800000 in
/-- The run's result is the last stage, as a function of the two arguments' launch contents. -/
theorem res_eq (m : (ℓ : Loc nD τ sig) → Buf (Elt F) ℓ) (c : Dev nD) :
    Cert.ReferenceIdeal.ValueP.res_main_v68 m c
      = Cert.ReferenceIdeal.ReadP.val_main_v68 (F := F) (m ((c.tc : Thread nD τ).loc main_arg0)) (m ((c.tc : Thread nD τ).loc main_arg1)) := by
  unfold Cert.ReferenceIdeal.ValueP.res_main_v68
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_fold]
  try simp only [TRef.ofBuf, TRef.toBuf, cast_eq]
  rfl

end Cert.Loss.RefRunEq

end
-- ==== Proof.KernelTerms.lean ====
/-
  The two vectors the body's last stretch combines, named: the first generalized mean carried back, and five times the gap,
  each as the body computes it from the two input blocks.
-/
import proofs.«415077_j32014686224515_3_alg».proof.Proof.Gen.KernelIdeal.Frame
import Idealize.ShloMosaic.PureOps.Ideal

noncomputable section

namespace Cert.Loss.KernelTerms

open Idealize.ShloMosaic Cert.KernelIdeal Cert.KernelIdeal.Gen

/-- The first generalized mean carried back, per row of the block. -/
def sortVec (x0 : Vec Ideal S1024x1000 .f32) (x1 : Vec Ideal S1024x10 .i32) : FVec Ideal S1024x1 .f32 :=
  k0_pay26 (View.ld x1 r0_1) (k0_pay2 (View.ld x0 r0_0)) (iota .tc S1024x1000 32 [1] iota_S1024x1000_d1_w32) (k0_pay4 (View.ld x0 r0_0) (View.ld x1 r0_1)) (k0_pay6 (View.ld x0 r0_0) (View.ld x1 r0_1)) (k0_pay8 (View.ld x0 r0_0) (View.ld x1 r0_1)) (k0_pay12 (k0_pay2 (View.ld x0 r0_0)) (k0_pay10 (View.ld x1 r0_1)) (k0_pay11 (F := Ideal))) (k0_pay14 (View.ld x1 r0_1) (k0_pay2 (View.ld x0 r0_0)) (iota .tc S1024x1000 32 [1] iota_S1024x1000_d1_w32)) (k0_pay16 (View.ld x1 r0_1) (k0_pay2 (View.ld x0 r0_0)) (iota .tc S1024x1000 32 [1] iota_S1024x1000_d1_w32)) (k0_pay18 (View.ld x1 r0_1) (k0_pay2 (View.ld x0 r0_0)) (iota .tc S1024x1000 32 [1] iota_S1024x1000_d1_w32)) (k0_pay20 (View.ld x1 r0_1) (k0_pay2 (View.ld x0 r0_0)) (iota .tc S1024x1000 32 [1] iota_S1024x1000_d1_w32)) (k0_pay22 (View.ld x1 r0_1) (iota .tc S1024x1000 32 [1] iota_S1024x1000_d1_w32)) (k0_pay23 (F := Ideal))

/-- Five times the gap, per row of the block. -/
def gapVec (x0 : Vec Ideal S1024x1000 .f32) (x1 : Vec Ideal S1024x10 .i32) : FVec Ideal S1024x1 .f32 :=
  k0_pay27 (View.ld x1 r0_1) (k0_pay2 (View.ld x0 r0_0)) (iota .tc S1024x1000 32 [1] iota_S1024x1000_d1_w32) (k0_pay4 (View.ld x0 r0_0) (View.ld x1 r0_1)) (k0_pay6 (View.ld x0 r0_0) (View.ld x1 r0_1)) (k0_pay8 (View.ld x0 r0_0) (View.ld x1 r0_1)) (k0_pay12 (k0_pay2 (View.ld x0 r0_0)) (k0_pay10 (View.ld x1 r0_1)) (k0_pay11 (F := Ideal))) (k0_pay14 (View.ld x1 r0_1) (k0_pay2 (View.ld x0 r0_0)) (iota .tc S1024x1000 32 [1] iota_S1024x1000_d1_w32)) (k0_pay16 (View.ld x1 r0_1) (k0_pay2 (View.ld x0 r0_0)) (iota .tc S1024x1000 32 [1] iota_S1024x1000_d1_w32)) (k0_pay18 (View.ld x1 r0_1) (k0_pay2 (View.ld x0 r0_0)) (iota .tc S1024x1000 32 [1] iota_S1024x1000_d1_w32)) (k0_pay20 (View.ld x1 r0_1) (k0_pay2 (View.ld x0 r0_0)) (iota .tc S1024x1000 32 [1] iota_S1024x1000_d1_w32)) (k0_pay21 (View.ld x1 r0_1) (iota .tc S1024x1000 32 [1] iota_S1024x1000_d1_w32) (k0_pay9 (View.ld x0 r0_0) (View.ld x1 r0_1)) (k0_pay10 (View.ld x1 r0_1))) (k0_pay22 (View.ld x1 r0_1) (iota .tc S1024x1000 32 [1] iota_S1024x1000_d1_w32)) (k0_pay23 (F := Ideal))

/-- The block the body stores is its last stretch applied to the two. -/
theorem out_eq (x0 : Vec Ideal S1024x1000 .f32) (x1 : Vec Ideal S1024x10 .i32) :
    out0_2 (F := Ideal) x0 x1 = View.canon [⟨r0_2, k0_pay1 (sortVec x0 x1) (gapVec x0 x1)⟩] := rfl

end Cert.Loss.KernelTerms

end
-- ==== Proof.Spec.lean ====
/-
  One row of the loss, on the extended reals, with no program in sight.

  A row is a vector x of 1000 scores and ten class positions idx. Its softmax p_c = exp(x_c − M) / (0 + Σ_c exp(x_c − M)),
  M the row's greatest score, is read at the ten positions (`picked`), and the greatest of the OTHER classes is
  taken by sending the ten to −∞ first (`restMax`). From the ten picked values q and the gap g = restMax − min q
  the loss is a chain of two generalized means: the nine bases 5 + 5·(q_{j+1} − q_j) are raised to the ninth power,
  averaged and rooted; the result s and the gap give the two bases 5 + 5·g and 5 + 5·s, raised to the tenth power,
  averaged and rooted; each root is carried back by (· − 5)/5.

  The two programs differ only in how they take the powers and the roots. One multiplies (x⁹ = x·((x²)²)²,
  x¹⁰ = x²·((x²)²)²) and roots by exp(log m · c); the other uses the real power for both. `tailK` and `tailR` are the
  two chains; they are stated over the same literals, kept as the binary32 words both programs carry.
-/
import Idealize.ShloMosaic.PureOps.Ideal

noncomputable section

namespace Cert.Loss

open Idealize.ShloMosaic

/-! ## The literals, as binary32 words -/

/-- 5. -/
def five : EReal := Ideal.ofBits .f32 0x40A00000#32
/-- 9, the first power and the first mean's count. -/
def nine : EReal := Ideal.ofBits .f32 0x41100000#32
/-- 10, the second power. -/
def ten : EReal := Ideal.ofBits .f32 0x41200000#32
/-- 2, the second mean's count. -/
def two : EReal := Ideal.ofBits .f32 0x40000000#32
/-- The binary32 number nearest 1/9 (a dyadic rational, not 1/9). -/
def ninth : EReal := Ideal.ofBits .f32 0x3DE38E39#32
/-- The binary32 number nearest 1/10. -/
def tenth : EReal := Ideal.ofBits .f32 0x3DCCCCCD#32
/-- The zero word, a sum's initial value. -/
def zero : EReal := Ideal.ofBits .f32 0x00000000#32
/-- −∞, a maximum's initial value and the mask's fill. -/
def negInf : EReal := Ideal.ofBits .f32 0xFF800000#32
/-- +∞, a minimum's initial value. -/
def posInf : EReal := Ideal.ofBits .f32 0x7F800000#32

/-! ## The softmax of a row, its ten picked values, and the greatest of the rest -/

/-- The row's greatest score, folded from −∞. -/
def rowMax (x : Fin 1000 → EReal) : EReal := Finset.univ.fold max negInf x

/-- exp(x_c − M). -/
def expShift (x : Fin 1000 → EReal) (c : Fin 1000) : EReal := Ideal.exp (x c - rowMax x)

/-- 0 + Σ_c exp(x_c − M). -/
def denom (x : Fin 1000 → EReal) : EReal := zero + ∑ c, expShift x c

/-- The softmax value of class c. -/
def prob (x : Fin 1000 → EReal) (c : Fin 1000) : EReal := Ideal.div (expShift x c) (denom x)

/-- The softmax values at the row's ten positions. -/
def picked (x : Fin 1000 → EReal) (idx : Fin 10 → Fin 1000) (k : Fin 10) : EReal := prob x (idx k)

/-- The softmax row with the ten positions sent to −∞. -/
def masked (x : Fin 1000 → EReal) (idx : Fin 10 → Fin 1000) (c : Fin 1000) : EReal :=
  if ∃ k, idx k = c then negInf else prob x c

/-- The greatest softmax value outside the ten positions. -/
def restMax (x : Fin 1000 → EReal) (idx : Fin 10 → Fin 1000) : EReal := Finset.univ.fold max negInf (masked x idx)

/-- The least of the ten picked values, folded from +∞. -/
def pickedMin (x : Fin 1000 → EReal) (idx : Fin 10 → Fin 1000) : EReal := Finset.univ.fold min posInf (picked x idx)

/-! ## The two chains of generalized means -/

/-- The j-th base of the first mean: 5 + 5·(q_{j+1} − q_j). -/
def base (q : Fin 10 → EReal) (j : Fin 9) : EReal := five + five * (q j.succ - q j.castSucc)

/-- x⁹ by squarings: x·((x²)²)². -/
def pow9K (s : EReal) : EReal := s * (((s * s) * (s * s)) * ((s * s) * (s * s)))

/-- x¹⁰ by squarings: x²·((x²)²)². -/
def pow10K (s : EReal) : EReal := (s * s) * (((s * s) * (s * s)) * ((s * s) * (s * s)))

/-- The first mean carried back, powers by squarings, the root as exp(log m · c). -/
def sortK (q : Fin 10 → EReal) : EReal :=
  Ideal.div (Ideal.exp (Ideal.log (Ideal.div (zero + ∑ j, pow9K (base q j)) nine) * ninth) - five) five

/-- The whole chain, powers by squarings, roots as exp(log m · c). -/
def tailK (q : Fin 10 → EReal) (g : EReal) : EReal :=
  Ideal.div (Ideal.exp (Ideal.log (Ideal.div (pow10K (five + five * g) + pow10K (five + five * sortK q)) two) * tenth) - five) five

/-- The first mean carried back, powers and root by the real power. -/
def sortR (q : Fin 10 → EReal) : EReal :=
  Ideal.div (Ideal.pow (Ideal.div (zero + ∑ j, Ideal.pow (base q j) nine) nine) ninth - five) five

/-- The whole chain, powers and roots by the real power. -/
def tailR (q : Fin 10 → EReal) (g : EReal) : EReal :=
  Ideal.div (Ideal.pow (Ideal.div (zero + (Ideal.pow (five + five * g) ten + Ideal.pow (five + five * sortR q) ten)) two) tenth - five) five

/-- A row's loss, the multiplying chain. -/
def rowK (x : Fin 1000 → EReal) (idx : Fin 10 → Fin 1000) : EReal :=
  tailK (picked x idx) (restMax x idx - pickedMin x idx)

/-- A row's loss, the real-power chain. -/
def rowR (x : Fin 1000 → EReal) (idx : Fin 10 → Fin 1000) : EReal :=
  tailR (picked x idx) (restMax x idx - pickedMin x idx)

end Cert.Loss

end
-- ==== Proof.KernelSort.lean ====
/-
  The first generalized mean of a row, as the kernel's body computes it: the ten lane sums are the picked softmax values, and the
  chain over their nine differences is the multiplying one.
-/
import proofs.«415077_j32014686224515_3_alg».proof.Proof.KernelTerms
import proofs.«415077_j32014686224515_3_alg».proof.Proof.Spec
import Idealize.ShloMosaic.Lib.ValueIdx
import Idealize.ShloMosaic.Lib.Pipeline.Value
import Idealize.ShloMosaic.PureOps.Ideal.Laws

noncomputable section

namespace Cert.Loss.KernelSort

open Idealize.ShloMosaic Idealize.ShloMosaic.ValueIdx Cert.KernelIdeal Cert.KernelIdeal.Gen Cert.Loss.KernelTerms

/-! ## The layout operations of the body, read at explicit coordinates -/

section Layout
variable {α : Type}

/-- The keepdims column cast [1024] → [1024, 1] reads row r at (r, 0). -/
theorem colCast_apply (v : S1024.Idx → α) (h : S1024.ShapeCasts S1024x1) (r : Fin 1024) :
    shapeCast S1024x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- The column broadcast [1024, 1] → [1024, 1000] reads (r, 0) at every (r, c). -/
theorem colBcast_apply (v : S1024x1.Idx → α) (h : S1024x1.Broadcasts S1024x1000) (r : Fin 1024) (c : Fin 1000) :
    broadcastTo S1024x1000 v h (ix2 r c) = v (ix2 r (0 : Fin 1)) := by
  refine broadcastTo_apply v h (ix2 r c) (ix2 r (0 : Fin 1)) ?_
  intro a
  match a with
  | ⟨0, _⟩ => rfl
  | ⟨1, _⟩ => rfl

/-- Column n of the [1024, 10] block, as a [1024, 1] slice, reads (r, n) at (r, 0). -/
theorem colSlice_apply (v : S1024x10.Idx → α) (n : Nat) (h : S1024x10.Slices ![0, n] S1024x1) (k : Fin 10) (hk : k.val = n)
    (r : Fin 1024) : extractStridedSlice S1024x1 ![0, n] v h (ix2 r (0 : Fin 1)) = v (ix2 r k) := by
  refine extractStridedSlice_apply ![0, n] v h (ix2 r (0 : Fin 1)) (ix2 r k) ?_
  intro a
  match a with
  | ⟨0, _⟩ => show r.val = 0 + r.val; omega
  | ⟨1, _⟩ => show k.val = n + 0; omega

/-- Nine columns of the [1024, 10] block from column o on: (r, o + j) at (r, j). -/
theorem nineSlice_apply (v : S1024x10.Idx → α) (o : Nat) (h : S1024x10.Slices ![0, o] S1024x9) (j : Fin 9) (k : Fin 10)
    (hk : k.val = o + j.val) (r : Fin 1024) : extractStridedSlice S1024x9 ![0, o] v h (ix2 r j) = v (ix2 r k) := by
  refine extractStridedSlice_apply ![0, o] v h (ix2 r j) (ix2 r k) ?_
  intro a
  match a with
  | ⟨0, _⟩ => show r.val = 0 + r.val; omega
  | ⟨1, _⟩ => show k.val = o + j.val; omega

end Layout

/-- The lane counter at (r, c) is the word of c. -/
theorem iota_apply (h : S1024x1000.Iotas .tc 32 [1]) (r : Fin 1024) (c : Fin 1000) :
    iota .tc S1024x1000 32 [1] h (ix2 r c) = BitVec.ofNat 32 c.val :=
  iota_single_apply .tc S1024x1000 32 1 h (ix2 r c)

/-- Two lane words below 1000 are equal exactly when the lanes are. -/
theorem cmpi_lane (c j : Fin 1000) :
    IntOp.cmpi .eq (BitVec.ofNat 32 c.val) (BitVec.ofNat 32 j.val) = if c = j then 1#1 else 0#1 := by
  unfold IntOp.cmpi
  by_cases hcj : c = j
  · subst hcj; simp
  · rw [if_neg hcj]
    have hne : (BitVec.ofNat 32 c.val) ≠ (BitVec.ofNat 32 j.val) := by
      intro he
      have := congrArg BitVec.toNat he
      rw [BitVec.toNat_ofNat, BitVec.toNat_ofNat, Nat.mod_eq_of_lt (by omega), Nat.mod_eq_of_lt (by omega)] at this
      exact hcj (Fin.ext this)
    show BitVec.ofBool (BitVec.ofNat 32 c.val == BitVec.ofNat 32 j.val) = 0#1
    rw [beq_eq_false_iff_ne.mpr hne]
    rfl

/-! ## The lane reductions at a row -/

/-- A lane sum of a [1024, 1000] block, at row r, is the sum over the row's 1000 lanes. -/
theorem laneSum_apply (src : FVec Ideal S1024x1000 .f32) (h : S1024x1000.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1000, src (ix2 r c) := by
  refine (Ideal.multiReduction_add_single src 0x00000000#32 h hφ hacc (ix1 r)).trans ?_
  refine Finset.sum_congr rfl fun c _ => congrArg src ?_
  funext a
  match a with
  | ⟨0, _⟩ => exact Fin.ext rfl
  | ⟨1, _⟩ => exact Fin.ext rfl

/-- A lane maximum of a [1024, 1000] block, at row r, is the fold of max from −∞ over the row's 1000 lanes. -/
theorem laneMax_apply (src : FVec Ideal S1024x1000 .f32) (h : S1024x1000.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 1000)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin 1000)).fold max (Ideal.ofBits .f32 0xFF800000#32) f) ?_
  funext c
  refine congrArg src ?_
  funext a
  match a with
  | ⟨0, _⟩ => exact Fin.ext rfl
  | ⟨1, _⟩ => exact Fin.ext rfl

/-- A lane sum of a [1024, 9] block, at row r, is the sum over the row's nine lanes. -/
theorem nineSum_apply (src : FVec Ideal S1024x9 .f32) (h : S1024x9.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ j : Fin 9, src (ix2 r j) := by
  refine (Ideal.multiReduction_add_single src 0x00000000#32 h hφ hacc (ix1 r)).trans ?_
  refine Finset.sum_congr rfl fun c _ => congrArg src ?_
  funext a
  match a with
  | ⟨0, _⟩ => exact Fin.ext rfl
  | ⟨1, _⟩ => exact Fin.ext rfl

/-! ## The transcendental operations at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The softmax block at an index -/

set_option backward.isDefEq.respectTransparency.types false in
/-- The softmax block at (r, c) is the specification's softmax of row r at class c. -/
theorem softmax_apply (x0 : Vec Ideal S1024x1000 .f32) (r : Fin 1024) (c : Fin 1000) :
    k0_pay2 (F := Ideal) x0 (ix2 r c) = Cert.Loss.prob (fun c => x0 (ix2 r c)) c := by
  unfold k0_pay2
  simp only [divf_apply, colBcast_apply, colCast_apply]
  rw [laneSum_apply _ _ _ _ r]
  simp only [exp_apply, subf_apply, colBcast_apply, colCast_apply]
  rw [laneMax_apply x0 _ _ _ r]
  unfold Cert.Loss.prob Cert.Loss.denom Cert.Loss.expShift Cert.Loss.rowMax Cert.Loss.negInf Cert.Loss.zero
  rw [Ideal.ofBits_zero_f32, zero_add]

/-! ## One position's lane sum -/

/-- The mask of the position in column n, at (r, c): set exactly at the lane the column's word names. -/
theorem mask_apply (x1 : Vec Ideal S1024x10 .i32) (n : Nat) (h : S1024x10.Slices ![0, n] S1024x1)
    (hb : S1024x1.Broadcasts S1024x1000) (hi : S1024x1000.Iotas .tc 32 [1]) (k : Fin 10) (hk : k.val = n)
    (r : Fin 1024) (j : Fin 1000) (hj : x1 (ix2 r k) = BitVec.ofNat 32 j.val) (c : Fin 1000) :
    cmpi .eq (iota .tc S1024x1000 32 [1] hi) (broadcastTo S1024x1000 (extractStridedSlice S1024x1 ![0, n] x1 h) hb) (ix2 r c)
      = if c = j then 1#1 else 0#1 := by
  show IntOp.cmpi .eq (iota .tc S1024x1000 32 [1] hi (ix2 r c))
      (broadcastTo S1024x1000 (extractStridedSlice S1024x1 ![0, n] x1 h) hb (ix2 r c)) = _
  rw [iota_apply, colBcast_apply, colSlice_apply x1 n h k hk r, hj, cmpi_lane]

/-- The zero block reads 0 everywhere. -/
theorem zeros_apply (i : S1024x1000.Idx) :
    broadcast S1024x1000 (Scalar.ofBits (F := Ideal) .f32 0x00000000#32) i = (0 : EReal) :=
  Ideal.ofBits_zero_f32

set_option backward.isDefEq.respectTransparency.types false in
/-- A lane sum of a block masked to one lane j of row r (the other lanes reading 0) is the block at (r, j). -/
theorem lanePick_apply (m : IVec S1024x1000 1) (p z : FVec Ideal S1024x1000 .f32) (r : Fin 1024) (j : Fin 1000)
    (hm : ∀ c : Fin 1000, m (ix2 r c) = if c = j then 1#1 else 0#1) (hz : ∀ c : Fin 1000, z (ix2 r c) = 0)
    (h : S1024x1000.Reduces [1] S1024) (hφ : FKind.Formats .f32) (hacc : (0x00000000#32 : BitVec 32) = FKind.add.neutral .f32 hφ)
    (hc : S1024.ShapeCasts S1024x1) :
    shapeCast S1024x1 (multiReduction .add [1] S1024 (select m p z) 0x00000000#32 h hφ hacc) hc (ix2 r (0 : Fin 1))
      = p (ix2 r j) := by
  rw [colCast_apply, laneSum_apply _ _ _ _ r, Finset.sum_eq_single j]
  · rw [select_apply, hm j, if_pos rfl, select_one]
  · intro c _ hcj
    rw [select_apply, hm c, if_neg hcj, select_zero, hz c]
  · intro hj; exact absurd (Finset.mem_univ j) hj

set_option backward.isDefEq.respectTransparency.types false in
/-- The lane sum of the softmax block under the mask of the position in column n is the softmax of row r at the lane
    the column's word names. -/
theorem pos_apply (x0 : Vec Ideal S1024x1000 .f32) (x1 : Vec Ideal S1024x10 .i32) (r : Fin 1024) (n : Nat)
    (hs : S1024x10.Slices ![0, n] S1024x1) (hb : S1024x1.Broadcasts S1024x1000) (hi : S1024x1000.Iotas .tc 32 [1])
    (k : Fin 10) (hk : k.val = n) (j : Fin 1000) (hj : x1 (ix2 r k) = BitVec.ofNat 32 j.val)
    (h : S1024x1000.Reduces [1] S1024) (hφ : FKind.Formats .f32) (hacc : (0x00000000#32 : BitVec 32) = FKind.add.neutral .f32 hφ)
    (hc : S1024.ShapeCasts S1024x1) :
    shapeCast S1024x1 (multiReduction .add [1] S1024
        (select (cmpi .eq (iota .tc S1024x1000 32 [1] hi) (broadcastTo S1024x1000 (extractStridedSlice S1024x1 ![0, n] x1 hs) hb))
          (k0_pay2 (F := Ideal) x0) (broadcast S1024x1000 (Scalar.ofBits (F := Ideal) .f32 0x00000000#32)))
        0x00000000#32 h hφ hacc) hc (ix2 r (0 : Fin 1))
      = Cert.Loss.prob (fun c => x0 (ix2 r c)) j :=
  (lanePick_apply _ _ _ r j (mask_apply x1 n hs hb hi k hk r j hj) (fun c => zeros_apply _) h hφ hacc hc).trans
    (softmax_apply x0 r j)

/-! ## The ten lane sums side by side -/

section Cat
variable {α : Type}

/-- Ten [1024, 1] pieces side by side: column k of row r is piece k at (r, 0). -/
theorem cat10_apply (p0 p1 p2 p3 p4 p5 p6 p7 p8 p9 : S1024x1.Idx → α)
    (h : Shape.Concatenates [S1024x1, S1024x1, S1024x1, S1024x1, S1024x1, S1024x1, S1024x1, S1024x1, S1024x1, S1024x1] S1024x10 1)
    (r : Fin 1024) (q : Fin 10 → α)
    (h0 : p0 (ix2 r (0 : Fin 1)) = q 0)
    (h1 : p1 (ix2 r (0 : Fin 1)) = q 1)
    (h2 : p2 (ix2 r (0 : Fin 1)) = q 2)
    (h3 : p3 (ix2 r (0 : Fin 1)) = q 3)
    (h4 : p4 (ix2 r (0 : Fin 1)) = q 4)
    (h5 : p5 (ix2 r (0 : Fin 1)) = q 5)
    (h6 : p6 (ix2 r (0 : Fin 1)) = q 6)
    (h7 : p7 (ix2 r (0 : Fin 1)) = q 7)
    (h8 : p8 (ix2 r (0 : Fin 1)) = q 8)
    (h9 : p9 (ix2 r (0 : Fin 1)) = q 9) (k : Fin 10) :
    concatenate S1024x10 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r k) = q k := by
  have hi : ∀ (n : Fin 10) (b : Fin S1024x1.rank), b.cast (rfl : S1024x1.rank = S1024x10.rank) ≠ (1 : Fin S1024x10.rank) →
      ((ix2 r (0 : Fin 1) : S1024x1.Idx) b).val = ((ix2 r n : S1024x10.Idx) (b.cast rfl)).val := by
    intro n b hb
    match b with
    | ⟨0, _⟩ => rfl
    | ⟨1, _⟩ => exact absurd rfl hb
  match k with
  | ⟨0, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 0 (by show 0 < 10; omega) S1024x1 p0 rfl rfl 0 rfl (ix2 r (0 : Fin 1)) (hi _) rfl).trans h0
  | ⟨1, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 1 (by show 1 < 10; omega) S1024x1 p1 rfl rfl 1 rfl (ix2 r (0 : Fin 1)) (hi _) rfl).trans h1
  | ⟨2, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 2 (by show 2 < 10; omega) S1024x1 p2 rfl rfl 2 rfl (ix2 r (0 : Fin 1)) (hi _) rfl).trans h2
  | ⟨3, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 3 (by show 3 < 10; omega) S1024x1 p3 rfl rfl 3 rfl (ix2 r (0 : Fin 1)) (hi _) rfl).trans h3
  | ⟨4, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 4 (by show 4 < 10; omega) S1024x1 p4 rfl rfl 4 rfl (ix2 r (0 : Fin 1)) (hi _) rfl).trans h4
  | ⟨5, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 5 (by show 5 < 10; omega) S1024x1 p5 rfl rfl 5 rfl (ix2 r (0 : Fin 1)) (hi _) rfl).trans h5
  | ⟨6, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 6 (by show 6 < 10; omega) S1024x1 p6 rfl rfl 6 rfl (ix2 r (0 : Fin 1)) (hi _) rfl).trans h6
  | ⟨7, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 7 (by show 7 < 10; omega) S1024x1 p7 rfl rfl 7 rfl (ix2 r (0 : Fin 1)) (hi _) rfl).trans h7
  | ⟨8, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 8 (by show 8 < 10; omega) S1024x1 p8 rfl rfl 8 rfl (ix2 r (0 : Fin 1)) (hi _) rfl).trans h8
  | ⟨9, _⟩ => exact (concatenate_apply_piece (t := S1024x10) 1 [⟨S1024x1, p0⟩, ⟨S1024x1, p1⟩, ⟨S1024x1, p2⟩, ⟨S1024x1, p3⟩, ⟨S1024x1, p4⟩, ⟨S1024x1, p5⟩, ⟨S1024x1, p6⟩, ⟨S1024x1, p7⟩, ⟨S1024x1, p8⟩, ⟨S1024x1, p9⟩] h (ix2 r _) 9 (by show 9 < 10; omega) S1024x1 p9 rfl rfl 9 rfl (ix2 r (0 : Fin 1)) (hi _) rfl).trans h9

end Cat

/-- The ten-column block of lane sums, at (r, k), is the softmax of row r picked at position k. -/
theorem cat_row (x0 : Vec Ideal S1024x1000 .f32) (x1 : Vec Ideal S1024x10 .i32) (r : Fin 1024) (idx : Fin 10 → Fin 1000)
    (hidx : ∀ k : Fin 10, x1 (ix2 r k) = BitVec.ofNat 32 (idx k).val) (k : Fin 10) :
    k0_pay25 x1 (k0_pay2 (F := Ideal) x0) (iota .tc S1024x1000 32 [1] iota_S1024x1000_d1_w32) (k0_pay4 x0 x1) (k0_pay6 x0 x1) (k0_pay8 x0 x1) (k0_pay12 (k0_pay2 (F := Ideal) x0) (k0_pay10 x1) (k0_pay11 (F := Ideal))) (k0_pay14 x1 (k0_pay2 (F := Ideal) x0) (iota .tc S1024x1000 32 [1] iota_S1024x1000_d1_w32)) (k0_pay16 x1 (k0_pay2 (F := Ideal) x0) (iota .tc S1024x1000 32 [1] iota_S1024x1000_d1_w32)) (k0_pay18 x1 (k0_pay2 (F := Ideal) x0) (iota .tc S1024x1000 32 [1] iota_S1024x1000_d1_w32)) (k0_pay20 x1 (k0_pay2 (F := Ideal) x0) (iota .tc S1024x1000 32 [1] iota_S1024x1000_d1_w32)) (k0_pay22 x1 (iota .tc S1024x1000 32 [1] iota_S1024x1000_d1_w32)) (k0_pay23 (F := Ideal)) (ix2 r k)
      = Cert.Loss.picked (fun c => x0 (ix2 r c)) idx k := by
  unfold k0_pay25
  refine cat10_apply _ _ _ _ _ _ _ _ _ _ _ r (Cert.Loss.picked (fun c => x0 (ix2 r c)) idx) ?_ ?_ ?_ ?_ ?_ ?_ ?_ ?_ ?_ ?_ k
  · unfold k0_pay4 k0_pay3
    exact pos_apply x0 x1 r 0 _ _ _ 0 rfl (idx 0) (hidx 0) _ _ _ _
  · unfold k0_pay6 k0_pay5
    exact pos_apply x0 x1 r 1 _ _ _ 1 rfl (idx 1) (hidx 1) _ _ _ _
  · unfold k0_pay8 k0_pay7
    exact pos_apply x0 x1 r 2 _ _ _ 2 rfl (idx 2) (hidx 2) _ _ _ _
  · unfold k0_pay12 k0_pay10 k0_pay11
    exact pos_apply x0 x1 r 3 _ _ _ 3 rfl (idx 3) (hidx 3) _ _ _ _
  · unfold k0_pay14 k0_pay13
    exact pos_apply x0 x1 r 4 _ _ _ 4 rfl (idx 4) (hidx 4) _ _ _ _
  · unfold k0_pay16 k0_pay15
    exact pos_apply x0 x1 r 5 _ _ _ 5 rfl (idx 5) (hidx 5) _ _ _ _
  · unfold k0_pay18 k0_pay17
    exact pos_apply x0 x1 r 6 _ _ _ 6 rfl (idx 6) (hidx 6) _ _ _ _
  · unfold k0_pay20 k0_pay19
    exact pos_apply x0 x1 r 7 _ _ _ 7 rfl (idx 7) (hidx 7) _ _ _ _
  · unfold k0_pay22 k0_pay23
    exact pos_apply x0 x1 r 8 _ _ _ 8 rfl (idx 8) (hidx 8) _ _ _ _
  · unfold k0_pay24
    exact pos_apply x0 x1 r 9 _ _ _ 9 rfl (idx 9) (hidx 9) _ _ _ _

/-! ## The chain over the ten-column block -/

section Chain
variable {α : Type}

/-- The nine columns from the second on: (r, j + 1) at (r, j). -/
theorem slice1_apply (v : S1024x10.Idx → α) (h : S1024x10.Slices ![0, 1] S1024x9) (r : Fin 1024) (j : Fin 9) :
    extractStridedSlice S1024x9 ![0, 1] v h (ix2 r j) = v (ix2 r j.succ) :=
  nineSlice_apply v 1 h j j.succ (by rw [Fin.val_succ]; omega) r

/-- The nine columns from the first on: (r, j) at (r, j). -/
theorem slice0_apply (v : S1024x10.Idx → α) (h : S1024x10.Slices ![0, 0] S1024x9) (r : Fin 1024) (j : Fin 9) :
    extractStridedSlice S1024x9 ![0, 0] v h (ix2 r j) = v (ix2 r j.castSucc) :=
  nineSlice_apply v 0 h j j.castSucc (by show j.val = 0 + j.val; omega) r

end Chain

set_option backward.isDefEq.respectTransparency.types false in
/-- The body's last stretch before the second mean, at row r: when the ten-column block reads q along the row, the result
    is the multiplying chain's first mean of q, carried back. -/
theorem pay26_apply (v1 : Vec Ideal S1024x10 .i32) (v10 : FVec Ideal S1024x1000 .f32) (v11 : IVec S1024x1000 32)
    (v18 v27 v36 v45 v54 v63 v72 v81 : FVec Ideal S1024x1 .f32) (v86 : IVec S1024x1000 1) (v87 : FVec Ideal S1024x1000 .f32)
    (r : Fin 1024) (q : Fin 10 → EReal)
    (hw : ∀ k : Fin 10, k0_pay25 v1 v10 v11 v18 v27 v36 v45 v54 v63 v72 v81 v86 v87 (ix2 r k) = q k) :
    k0_pay26 v1 v10 v11 v18 v27 v36 v45 v54 v63 v72 v81 v86 v87 (ix2 r (0 : Fin 1)) = Cert.Loss.sortK q := by
  unfold k0_pay26
  generalize k0_pay25 v1 v10 v11 v18 v27 v36 v45 v54 v63 v72 v81 v86 v87 = w at hw ⊢
  simp only [divf_apply, subf_apply, exp_apply, mulf_apply, log_apply, broadcast_apply, colCast_apply]
  rw [nineSum_apply _ _ _ _ r]
  simp only [mulf_apply, addf_apply, subf_apply, broadcast_apply, slice1_apply, slice0_apply, hw]
  unfold Cert.Loss.sortK Cert.Loss.pow9K Cert.Loss.base Cert.Loss.five Cert.Loss.nine Cert.Loss.ninth Cert.Loss.zero
  rw [Ideal.ofBits_zero_f32, zero_add]
  rfl

/-- Row r of the first mean carried back, when the row's ten position words are the lanes idx. -/
theorem sort_row (x0 : Vec Ideal S1024x1000 .f32) (x1 : Vec Ideal S1024x10 .i32) (r : Fin 1024) (idx : Fin 10 → Fin 1000)
    (hidx : ∀ k : Fin 10, x1 (ix2 r k) = BitVec.ofNat 32 (idx k).val) :
    sortVec x0 x1 (ix2 r (0 : Fin 1)) = Cert.Loss.sortK (Cert.Loss.picked (fun c => x0 (ix2 r c)) idx) := by
  have e0 : View.ld x0 r0_0 = x0 :=
    View.ld_unit_zero (by funext a; match a with | ⟨0, _⟩ => rfl | ⟨1, _⟩ => rfl) _ x0
  have e1 : View.ld x1 r0_1 = x1 :=
    View.ld_unit_zero (by funext a; match a with | ⟨0, _⟩ => rfl | ⟨1, _⟩ => rfl) _ x1
  unfold sortVec
  rw [e0, e1]
  exact pay26_apply _ _ _ _ _ _ _ _ _ _ _ _ _ r _ (cat_row x0 x1 r idx hidx)

end Cert.Loss.KernelSort

end
-- ==== Proof.KernelGap.lean ====
/-
  Five times the gap of a row, as the kernel's body computes it: the softmax row with the ten positions overwritten by −∞ lane by
  lane is the masked row, its maximum the greatest unpicked value, and the minimum of the ten lane sums the least picked one.

  The road: the layout operations read at explicit coordinates (a vector viewed as a column, a column broadcast along the lanes, a
  reduction along the lanes as a sum or a fold over the lane numbers); the softmax block at (r, c) is the softmax of row r at lane c;
  the lane-equality mask of position k is set exactly at lane idx k, so the masked lane sum is the softmax value there and one
  overwrite sends exactly that lane to −∞; ten overwrites give the masked row, the ten lane sums side by side the picked values.
-/
import proofs.«415077_j32014686224515_3_alg».proof.Proof.KernelTerms
import proofs.«415077_j32014686224515_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Loss.KernelGap

open Idealize.ShloMosaic Idealize.ShloMosaic.ValueIdx Cert.KernelIdeal Cert.KernelIdeal.Gen Cert.Loss.KernelTerms

/-! ## Layout operations and lane reductions at explicit coordinates -/

section Layout
variable {α : Type}

/-- A vector of `a` entries viewed as a column reads its entry at every row. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the lanes reads, at (i, c), the column's entry of row i. -/
theorem broadcastTo_col_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-- The source index over row i with lane c inserted is (i, c). -/
theorem lift_row {a b : ℕ} (h : (⟨2, ![a, b]⟩ : Shape).Reduces [1] ⟨1, ![a]⟩) (i : Fin a) (c : Fin b) :
    h.lift (ix1 i) c = ix2 i c := by
  funext ax
  match ax with
  | ⟨0, _⟩ => exact Fin.ext rfl
  | ⟨1, _⟩ => exact Fin.ext rfl

/-- A row's sum. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (i : Fin a) :
    multiReduction .add [1] ⟨1, ![a]⟩ src acc h hφ hacc (ix1 i) = ∑ c : Fin b, src (ix2 i c) := by
  rw [Ideal.multiReduction_add_single]
  exact Finset.sum_congr rfl fun c _ => congrArg src (lift_row h i c)

/-- A row's maximum, folded from the accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun c => src (ix2 i c)) := by
  rw [Ideal.multiReduction_maximumf_single]
  exact congrArg (Finset.fold max _ · Finset.univ) (funext fun c => congrArg src (lift_row h i c))

/-- A row's minimum, folded from the accumulator's value. -/
theorem rowMin_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.minimumf.neutral .f32 hφ) (i : Fin a) :
    multiReduction .minimumf [1] ⟨1, ![a]⟩ src acc h hφ hacc (ix1 i)
      = (Finset.univ : Finset (Fin b)).fold min (Ideal.ofBits .f32 acc) (fun c => src (ix2 i c)) := by
  rw [multiReduction_minimumf_eq_fold]
  refine (h.fold_filter_drop_single _ _ src (ix1 i)).trans ?_
  exact congrArg (Finset.fold min _ · Finset.univ) (funext fun c => congrArg src (lift_row h i c))

/-- Two lane numbers below 1000 have the same 32-bit word only when they are equal. -/
theorem word_eq_iff (c j : Fin 1000) : BitVec.ofNat 32 c.val = BitVec.ofNat 32 j.val ↔ c = j := by
  constructor
  · intro e
    have e' := congrArg BitVec.toNat e
    rw [BitVec.toNat_ofNat, BitVec.toNat_ofNat, Nat.mod_eq_of_lt (by have := c.isLt; omega),
      Nat.mod_eq_of_lt (by have := j.isLt; omega)] at e'
    exact Fin.ext e'
  · rintro rfl; rfl

/-- The lane-equality mask of position k: at (r, c) the bit says whether lane c is the row's k-th position. -/
theorem laneMask_apply (x1 : IVec S1024x10 32) (r : Fin 1024) (idx : Fin 10 → Fin 1000)
    (hidx : ∀ k : Fin 10, x1 (ix2 r k) = BitVec.ofNat 32 (idx k).val) (o : ℕ) (k : Fin 10) (hk : k.val = o)
    (hs : S1024x10.Slices ![0, o] S1024x1) (c : Fin 1000) :
    cmpi .eq (iota .tc S1024x1000 32 [1] iota_S1024x1000_d1_w32)
        (broadcastTo S1024x1000 (extractStridedSlice S1024x1 ![0, o] x1 hs) broadcasts_S1024x1_S1024x1000) (ix2 r c)
      = if idx k = c then 1#1 else 0#1 := by
  show IntOp.cmpi .eq (iota .tc S1024x1000 32 [1] iota_S1024x1000_d1_w32 (ix2 r c))
      (broadcastTo S1024x1000 (extractStridedSlice S1024x1 ![0, o] x1 hs) broadcasts_S1024x1_S1024x1000 (ix2 r c)) = _
  rw [iota_single_apply, broadcastTo_col_apply, slice2_axis1_apply o x1 hs r 0 k (by rw [hk]; rfl), hidx]
  show BitVec.ofBool (BitVec.ofNat 32 c.val == BitVec.ofNat 32 (idx k).val) = _
  by_cases h : idx k = c
  · rw [if_pos h, h, beq_self_eq_true]; rfl
  · rw [if_neg h, beq_eq_false_iff_ne.mpr fun e => h ((word_eq_iff c (idx k)).mp e).symm]; rfl

/-- The zero word, broadcast, reads 0. -/
theorem zeroVec_apply {s : Shape} (i : s.Idx) : broadcast s (Scalar.ofBits (F := Ideal) .f32 0x00000000#32) i = 0 :=
  Ideal.ofBits_zero_f32

/-- A select on a decided condition. -/
theorem select_ite {α : Type} (q : Prop) [Decidable q] (a b : α) :
    Scalar.select (if q then 1#1 else 0#1) a b = if q then a else b := by
  by_cases h : q
  · rw [if_pos h, if_pos h, select_one]
  · rw [if_neg h, if_neg h, select_zero]

/-- The lane sum of a row masked to its one lane j is the row's value there. -/
theorem pick_apply (m : IVec S1024x1000 1) (P z : FVec Ideal S1024x1000 .f32) (r : Fin 1024) (j : Fin 1000) (u : Fin 1)
    (hm : ∀ c, m (ix2 r c) = if j = c then 1#1 else 0#1) (hz : ∀ c, z (ix2 r c) = 0) :
    shapeCast S1024x1 (multiReduction .add [1] S1024 (select m P z) 0x00000000#32 reduces_S1024x1000_S1024 (.inl rfl) rfl)
        shapeCasts_S1024_S1024x1 (ix2 r u) = P (ix2 r j) := by
  rw [shapeCast_col_apply]
  refine (rowSum_apply (a := 1024) (b := 1000) (select m P z) _ reduces_S1024x1000_S1024 _ _ r).trans ?_
  have e : ∀ c : Fin 1000, select m P z (ix2 r c) = if j = c then P (ix2 r c) else 0 := fun c => by
    rw [select_apply, hm c, hz c, select_ite]
  rw [Finset.sum_congr rfl fun c _ => e c, Finset.sum_ite_eq, if_pos (Finset.mem_univ j)]

/-! ## The softmax block -/

/-- The exponential at an index. -/
theorem expv_apply {s : Shape} (v : FVec Ideal s .f32) (i : s.Idx) : Idealize.ShloMosaic.exp v i = Ideal.exp (v i) := rfl

/-- The row maxima, broadcast along the lanes. -/
def maxB (x0 : FVec Ideal S1024x1000 .f32) : FVec Ideal S1024x1000 .f32 :=
  broadcastTo S1024x1000 (shapeCast S1024x1 (multiReduction .maximumf [1] S1024 x0 0xFF800000#32 reduces_S1024x1000_S1024 (.inl rfl) rfl)
    shapeCasts_S1024_S1024x1) broadcasts_S1024x1_S1024x1000

/-- The shifted exponentials. -/
def expB (x0 : FVec Ideal S1024x1000 .f32) : FVec Ideal S1024x1000 .f32 := Idealize.ShloMosaic.exp (subf x0 (maxB x0))

/-- The row sums of the shifted exponentials, broadcast along the lanes. -/
def sumB (x0 : FVec Ideal S1024x1000 .f32) : FVec Ideal S1024x1000 .f32 :=
  broadcastTo S1024x1000 (shapeCast S1024x1 (multiReduction .add [1] S1024 (expB x0) 0x00000000#32 reduces_S1024x1000_S1024 (.inl rfl) rfl)
    shapeCasts_S1024_S1024x1) broadcasts_S1024x1_S1024x1000

theorem pay2_eq (x0 : FVec Ideal S1024x1000 .f32) : k0_pay2 (F := Ideal) x0 = divf (expB x0) (sumB x0) := rfl

theorem maxB_apply (x0 : FVec Ideal S1024x1000 .f32) (r : Fin 1024) (c : Fin 1000) :
    maxB x0 (ix2 r c) = Cert.Loss.rowMax (fun c => x0 (ix2 r c)) := by
  unfold maxB
  rw [broadcastTo_col_apply, shapeCast_col_apply]
  exact rowMax_apply (a := 1024) (b := 1000) x0 _ reduces_S1024x1000_S1024 _ _ r

theorem expB_apply (x0 : FVec Ideal S1024x1000 .f32) (r : Fin 1024) (c : Fin 1000) :
    expB x0 (ix2 r c) = Cert.Loss.expShift (fun c => x0 (ix2 r c)) c := by
  unfold expB
  rw [expv_apply, subf_apply, maxB_apply]
  rfl

theorem sumB_apply (x0 : FVec Ideal S1024x1000 .f32) (r : Fin 1024) (c : Fin 1000) :
    sumB x0 (ix2 r c) = Cert.Loss.denom (fun c => x0 (ix2 r c)) := by
  unfold sumB
  rw [broadcastTo_col_apply, shapeCast_col_apply]
  refine (rowSum_apply (a := 1024) (b := 1000) (expB x0) _ reduces_S1024x1000_S1024 _ _ r).trans ?_
  rw [Finset.sum_congr rfl fun c' _ => expB_apply x0 r c']
  unfold Cert.Loss.denom Cert.Loss.zero
  rw [Ideal.ofBits_zero_f32, zero_add]

/-- The softmax block at (r, c) is the softmax of row r at lane c. -/
theorem softmax_apply (x0 : FVec Ideal S1024x1000 .f32) (r : Fin 1024) (c : Fin 1000) :
    k0_pay2 (F := Ideal) x0 (ix2 r c) = Cert.Loss.prob (fun c => x0 (ix2 r c)) c := by
  rw [pay2_eq, divf_apply, expB_apply, sumB_apply]
  rfl

/-! ## The overwritten row -/

/-- The softmax row with the first n of the ten positions sent to −∞. -/
def maskedTo (x : Fin 1000 → EReal) (idx : Fin 10 → Fin 1000) (n : ℕ) (c : Fin 1000) : EReal :=
  if ∃ k : Fin 10, k.val < n ∧ idx k = c then Cert.Loss.negInf else Cert.Loss.prob x c

theorem maskedTo_zero (x : Fin 1000 → EReal) (idx : Fin 10 → Fin 1000) (c : Fin 1000) :
    maskedTo x idx 0 c = Cert.Loss.prob x c := by
  unfold maskedTo
  rw [if_neg]
  rintro ⟨k, hk, _⟩
  omega

theorem maskedTo_ten (x : Fin 1000 → EReal) (idx : Fin 10 → Fin 1000) (c : Fin 1000) :
    maskedTo x idx 10 c = Cert.Loss.masked x idx c := by
  unfold maskedTo Cert.Loss.masked
  have e : (∃ k : Fin 10, k.val < 10 ∧ idx k = c) ↔ ∃ k, idx k = c :=
    ⟨fun ⟨k, _, h⟩ => ⟨k, h⟩, fun ⟨k, h⟩ => ⟨k, k.isLt, h⟩⟩
  by_cases h : ∃ k, idx k = c
  · rw [if_pos h, if_pos (e.mpr h)]
  · rw [if_neg h, if_neg (fun h' => h (e.mp h'))]

/-- One overwrite: where the mask of position n is set the row becomes −∞, elsewhere it stays. -/
theorem overwrite_apply (m : IVec S1024x1000 1) (prev : FVec Ideal S1024x1000 .f32) (x : Fin 1000 → EReal)
    (idx : Fin 10 → Fin 1000) (r : Fin 1024) (c : Fin 1000) (n : ℕ) (k : Fin 10) (hk : k.val = n)
    (hm : m (ix2 r c) = if idx k = c then 1#1 else 0#1) (hp : prev (ix2 r c) = maskedTo x idx n c) :
    select m (broadcast S1024x1000 (Scalar.ofBits (F := Ideal) .f32 0xFF800000#32)) prev (ix2 r c)
      = maskedTo x idx (n + 1) c := by
  rw [select_apply, hm, hp, select_ite, broadcast_apply]
  show (if idx k = c then Cert.Loss.negInf else maskedTo x idx n c) = _
  unfold maskedTo
  by_cases h : idx k = c
  · rw [if_pos h, if_pos ⟨k, by omega, h⟩]
  · rw [if_neg h]
    by_cases h' : ∃ k' : Fin 10, k'.val < n ∧ idx k' = c
    · obtain ⟨k', hk', e⟩ := h'
      rw [if_pos ⟨k', hk', e⟩, if_pos ⟨k', by omega, e⟩]
    · rw [if_neg h', if_neg]
      rintro ⟨k', hk', e⟩
      by_cases hkk : k'.val < n
      · exact h' ⟨k', hkk, e⟩
      · have hkk' : k' = k := Fin.ext (by omega)
        exact h (hkk' ▸ e)

/-! ## The ten lane sums side by side -/

theorem concat10_apply (p0 p1 p2 p3 p4 p5 p6 p7 p8 p9 : FVec Ideal S1024x1 .f32) (r : Fin 1024) (k : Fin 10) :
    concatenate S1024x10 1 [⟨S1024x1, p0⟩, ⟨S1024x1, p1⟩, ⟨S1024x1, p2⟩, ⟨S1024x1, p3⟩, ⟨S1024x1, p4⟩, ⟨S1024x1, p5⟩,
        ⟨S1024x1, p6⟩, ⟨S1024x1, p7⟩, ⟨S1024x1, p8⟩, ⟨S1024x1, p9⟩] concatenates_S1024x1_S1024x1_S1024x1_S1024x1_S1024x1_S1024x1_S1024x1_S1024x1_S1024x1_S1024x1_S1024x10_d1 (ix2 r k)
      = (![p0, p1, p2, p3, p4, p5, p6, p7, p8, p9] : Fin 10 → FVec Ideal S1024x1 .f32) k (ix2 r (0 : Fin 1)) :=
  concatenate_ofFn_unit_apply (t := S1024x10) (s₁ := S1024x1) 1 ![p0, p1, p2, p3, p4, p5, p6, p7, p8, p9] _ rfl rfl (ix2 r k) k rfl
    (ix2 r (0 : Fin 1)) (fun b hb => match b, hb with
      | ⟨0, _⟩, _ => rfl
      | ⟨1, _⟩, hb => absurd rfl hb)

/-! ## Row r of the body's values -/

/-- The lane numbers along a row, as the body reads them. -/
abbrev iotaV : IVec S1024x1000 32 := iota .tc S1024x1000 32 [1] iota_S1024x1000_d1_w32

section Row
variable (x0 : Vec Ideal S1024x1000 .f32) (x1 : Vec Ideal S1024x10 .i32) (r : Fin 1024) (idx : Fin 10 → Fin 1000)
    (hidx : ∀ k : Fin 10, x1 (ix2 r k) = BitVec.ofNat 32 (idx k).val)

include hidx

/-! The ten masks. -/
theorem mask0 (c : Fin 1000) : k0_pay3 (F := Ideal) x1 (ix2 r c) = if idx 0 = c then 1#1 else 0#1 :=
  laneMask_apply x1 r idx hidx 0 0 rfl _ c
theorem mask1 (c : Fin 1000) : k0_pay5 (F := Ideal) x1 (ix2 r c) = if idx 1 = c then 1#1 else 0#1 :=
  laneMask_apply x1 r idx hidx 1 1 rfl _ c
theorem mask2 (c : Fin 1000) : k0_pay7 (F := Ideal) x1 (ix2 r c) = if idx 2 = c then 1#1 else 0#1 :=
  laneMask_apply x1 r idx hidx 2 2 rfl _ c
theorem mask3 (c : Fin 1000) : k0_pay10 (F := Ideal) x1 (ix2 r c) = if idx 3 = c then 1#1 else 0#1 :=
  laneMask_apply x1 r idx hidx 3 3 rfl _ c
theorem mask4 (c : Fin 1000) : k0_pay13 (F := Ideal) x1 iotaV (ix2 r c) = if idx 4 = c then 1#1 else 0#1 :=
  laneMask_apply x1 r idx hidx 4 4 rfl _ c
theorem mask5 (c : Fin 1000) : k0_pay15 (F := Ideal) x1 iotaV (ix2 r c) = if idx 5 = c then 1#1 else 0#1 :=
  laneMask_apply x1 r idx hidx 5 5 rfl _ c
theorem mask6 (c : Fin 1000) : k0_pay17 (F := Ideal) x1 iotaV (ix2 r c) = if idx 6 = c then 1#1 else 0#1 :=
  laneMask_apply x1 r idx hidx 6 6 rfl _ c
theorem mask7 (c : Fin 1000) : k0_pay19 (F := Ideal) x1 iotaV (ix2 r c) = if idx 7 = c then 1#1 else 0#1 :=
  laneMask_apply x1 r idx hidx 7 7 rfl _ c
theorem mask8 (c : Fin 1000) : k0_pay22 (F := Ideal) x1 iotaV (ix2 r c) = if idx 8 = c then 1#1 else 0#1 :=
  laneMask_apply x1 r idx hidx 8 8 rfl _ c
theorem mask9 (c : Fin 1000) : k0_pay24 (F := Ideal) x1 iotaV (ix2 r c) = if idx 9 = c then 1#1 else 0#1 :=
  laneMask_apply x1 r idx hidx 9 9 rfl _ c

/-! The first eight lane sums. -/
theorem lane0 (u : Fin 1) : k0_pay4 (F := Ideal) x0 x1 (ix2 r u) = Cert.Loss.prob (fun c => x0 (ix2 r c)) (idx 0) :=
  (pick_apply (k0_pay3 (F := Ideal) x1) (k0_pay2 (F := Ideal) x0) _ r (idx 0) u (mask0 x1 r idx hidx) (fun _ => zeroVec_apply _)).trans
    (softmax_apply x0 r (idx 0))
theorem lane1 (u : Fin 1) : k0_pay6 (F := Ideal) x0 x1 (ix2 r u) = Cert.Loss.prob (fun c => x0 (ix2 r c)) (idx 1) :=
  (pick_apply (k0_pay5 (F := Ideal) x1) (k0_pay2 (F := Ideal) x0) _ r (idx 1) u (mask1 x1 r idx hidx) (fun _ => zeroVec_apply _)).trans
    (softmax_apply x0 r (idx 1))
theorem lane2 (u : Fin 1) : k0_pay8 (F := Ideal) x0 x1 (ix2 r u) = Cert.Loss.prob (fun c => x0 (ix2 r c)) (idx 2) :=
  (pick_apply (k0_pay7 (F := Ideal) x1) (k0_pay2 (F := Ideal) x0) _ r (idx 2) u (mask2 x1 r idx hidx) (fun _ => zeroVec_apply _)).trans
    (softmax_apply x0 r (idx 2))
theorem lane3 (u : Fin 1) :
    k0_pay12 (F := Ideal) (k0_pay2 (F := Ideal) x0) (k0_pay10 (F := Ideal) x1) (k0_pay11 (F := Ideal)) (ix2 r u)
      = Cert.Loss.prob (fun c => x0 (ix2 r c)) (idx 3) :=
  (pick_apply (k0_pay10 (F := Ideal) x1) (k0_pay2 (F := Ideal) x0) (k0_pay11 (F := Ideal)) r (idx 3) u (mask3 x1 r idx hidx)
    (fun c => zeroVec_apply (s := S1024x1000) (ix2 r c))).trans (softmax_apply x0 r (idx 3))
theorem lane4 (u : Fin 1) : k0_pay14 (F := Ideal) x1 (k0_pay2 (F := Ideal) x0) iotaV (ix2 r u) = Cert.Loss.prob (fun c => x0 (ix2 r c)) (idx 4) :=
  (pick_apply (k0_pay13 (F := Ideal) x1 iotaV) (k0_pay2 (F := Ideal) x0) _ r (idx 4) u (mask4 x1 r idx hidx) (fun _ => zeroVec_apply _)).trans
    (softmax_apply x0 r (idx 4))
theorem lane5 (u : Fin 1) : k0_pay16 (F := Ideal) x1 (k0_pay2 (F := Ideal) x0) iotaV (ix2 r u) = Cert.Loss.prob (fun c => x0 (ix2 r c)) (idx 5) :=
  (pick_apply (k0_pay15 (F := Ideal) x1 iotaV) (k0_pay2 (F := Ideal) x0) _ r (idx 5) u (mask5 x1 r idx hidx) (fun _ => zeroVec_apply _)).trans
    (softmax_apply x0 r (idx 5))
theorem lane6 (u : Fin 1) : k0_pay18 (F := Ideal) x1 (k0_pay2 (F := Ideal) x0) iotaV (ix2 r u) = Cert.Loss.prob (fun c => x0 (ix2 r c)) (idx 6) :=
  (pick_apply (k0_pay17 (F := Ideal) x1 iotaV) (k0_pay2 (F := Ideal) x0) _ r (idx 6) u (mask6 x1 r idx hidx) (fun _ => zeroVec_apply _)).trans
    (softmax_apply x0 r (idx 6))
theorem lane7 (u : Fin 1) : k0_pay20 (F := Ideal) x1 (k0_pay2 (F := Ideal) x0) iotaV (ix2 r u) = Cert.Loss.prob (fun c => x0 (ix2 r c)) (idx 7) :=
  (pick_apply (k0_pay19 (F := Ideal) x1 iotaV) (k0_pay2 (F := Ideal) x0) _ r (idx 7) u (mask7 x1 r idx hidx) (fun _ => zeroVec_apply _)).trans
    (softmax_apply x0 r (idx 7))

end Row

/-- The ten lane sums side by side, as the body names them. -/
abbrev catV (x0 : Vec Ideal S1024x1000 .f32) (x1 : Vec Ideal S1024x10 .i32) : FVec Ideal S1024x10 .f32 :=
  k0_pay25 (F := Ideal) x1 (k0_pay2 (F := Ideal) x0) iotaV (k0_pay4 (F := Ideal) x0 x1) (k0_pay6 (F := Ideal) x0 x1) (k0_pay8 (F := Ideal) x0 x1)
    (k0_pay12 (F := Ideal) (k0_pay2 (F := Ideal) x0) (k0_pay10 (F := Ideal) x1) (k0_pay11 (F := Ideal))) (k0_pay14 (F := Ideal) x1 (k0_pay2 (F := Ideal) x0) iotaV)
    (k0_pay16 (F := Ideal) x1 (k0_pay2 (F := Ideal) x0) iotaV) (k0_pay18 (F := Ideal) x1 (k0_pay2 (F := Ideal) x0) iotaV)
    (k0_pay20 (F := Ideal) x1 (k0_pay2 (F := Ideal) x0) iotaV) (k0_pay22 (F := Ideal) x1 iotaV) (k0_pay23 (F := Ideal))

section Row2
variable (x0 : Vec Ideal S1024x1000 .f32) (x1 : Vec Ideal S1024x10 .i32) (r : Fin 1024) (idx : Fin 10 → Fin 1000)
    (hidx : ∀ k : Fin 10, x1 (ix2 r k) = BitVec.ofNat 32 (idx k).val)

include hidx

/-- Column k of the ten lane sums is the softmax value at the row's k-th position. -/
theorem cat_apply (k : Fin 10) : catV x0 x1 (ix2 r k) = Cert.Loss.picked (fun c => x0 (ix2 r c)) idx k := by
  unfold catV k0_pay25
  refine (concat10_apply _ _ _ _ _ _ _ _ _ _ r k).trans ?_
  fin_cases k
  · exact lane0 x0 x1 r idx hidx 0
  · exact lane1 x0 x1 r idx hidx 0
  · exact lane2 x0 x1 r idx hidx 0
  · exact lane3 x0 x1 r idx hidx 0
  · exact lane4 x0 x1 r idx hidx 0
  · exact lane5 x0 x1 r idx hidx 0
  · exact lane6 x0 x1 r idx hidx 0
  · exact lane7 x0 x1 r idx hidx 0
  · exact (pick_apply (k0_pay22 (F := Ideal) x1 iotaV) (k0_pay2 (F := Ideal) x0) (k0_pay23 (F := Ideal)) r (idx 8) 0 (mask8 x1 r idx hidx)
      (fun c => zeroVec_apply (s := S1024x1000) (ix2 r c))).trans (softmax_apply x0 r (idx 8))
  · exact (pick_apply (k0_pay24 (F := Ideal) x1 iotaV) (k0_pay2 (F := Ideal) x0) _ r (idx 9) 0 (mask9 x1 r idx hidx)
      (fun c => zeroVec_apply (s := S1024x1000) (ix2 r c))).trans (softmax_apply x0 r (idx 9))

/-- After the first three overwrites. -/
theorem row3_apply (c : Fin 1000) :
    k0_pay9 (F := Ideal) x0 x1 (ix2 r c) = maskedTo (fun c => x0 (ix2 r c)) idx 3 c := by
  unfold k0_pay9
  exact overwrite_apply (k0_pay7 (F := Ideal) x1) _ _ idx r c 2 2 rfl (mask2 x1 r idx hidx c)
    (overwrite_apply (k0_pay5 (F := Ideal) x1) _ _ idx r c 1 1 rfl (mask1 x1 r idx hidx c)
      (overwrite_apply (k0_pay3 (F := Ideal) x1) (k0_pay2 (F := Ideal) x0) _ idx r c 0 0 rfl (mask0 x1 r idx hidx c)
        ((softmax_apply x0 r c).trans (maskedTo_zero _ idx c).symm)))

/-- After the first eight. -/
theorem row8_apply (c : Fin 1000) :
    k0_pay21 (F := Ideal) x1 iotaV (k0_pay9 (F := Ideal) x0 x1) (k0_pay10 (F := Ideal) x1) (ix2 r c)
      = maskedTo (fun c => x0 (ix2 r c)) idx 8 c := by
  unfold k0_pay21
  exact overwrite_apply (k0_pay19 (F := Ideal) x1 iotaV) _ _ idx r c 7 7 rfl (mask7 x1 r idx hidx c)
    (overwrite_apply (k0_pay17 (F := Ideal) x1 iotaV) _ _ idx r c 6 6 rfl (mask6 x1 r idx hidx c)
      (overwrite_apply (k0_pay15 (F := Ideal) x1 iotaV) _ _ idx r c 5 5 rfl (mask5 x1 r idx hidx c)
        (overwrite_apply (k0_pay13 (F := Ideal) x1 iotaV) _ _ idx r c 4 4 rfl (mask4 x1 r idx hidx c)
          (overwrite_apply (k0_pay10 (F := Ideal) x1) _ _ idx r c 3 3 rfl (mask3 x1 r idx hidx c)
            (row3_apply x0 x1 r idx hidx c)))))

/-- After all ten: the masked row. -/
theorem row10_apply (c : Fin 1000) :
    select (k0_pay24 (F := Ideal) x1 iotaV) (broadcast S1024x1000 (Scalar.ofBits (F := Ideal) .f32 0xFF800000#32))
        (select (k0_pay22 (F := Ideal) x1 iotaV) (broadcast S1024x1000 (Scalar.ofBits (F := Ideal) .f32 0xFF800000#32))
          (k0_pay21 (F := Ideal) x1 iotaV (k0_pay9 (F := Ideal) x0 x1) (k0_pay10 (F := Ideal) x1))) (ix2 r c)
      = Cert.Loss.masked (fun c => x0 (ix2 r c)) idx c :=
  (overwrite_apply (k0_pay24 (F := Ideal) x1 iotaV) _ _ idx r c 9 9 rfl (mask9 x1 r idx hidx c)
    (overwrite_apply (k0_pay22 (F := Ideal) x1 iotaV) _ _ idx r c 8 8 rfl (mask8 x1 r idx hidx c)
      (row8_apply x0 x1 r idx hidx c))).trans (maskedTo_ten _ idx c)

end Row2

/-- Row r of five times the gap, when the row's ten position words are the lanes idx. -/
theorem gap_row (x0 : Vec Ideal S1024x1000 .f32) (x1 : Vec Ideal S1024x10 .i32) (r : Fin 1024) (idx : Fin 10 → Fin 1000)
    (hidx : ∀ k : Fin 10, x1 (ix2 r k) = BitVec.ofNat 32 (idx k).val) :
    gapVec x0 x1 (ix2 r (0 : Fin 1))
      = Cert.Loss.five * (Cert.Loss.restMax (fun c => x0 (ix2 r c)) idx - Cert.Loss.pickedMin (fun c => x0 (ix2 r c)) idx) := by
  have hz : (![0, 0] : Fin 2 → ℕ) = fun _ => 0 := by funext a; fin_cases a <;> rfl
  have e0 : View.ld x0 r0_0 = x0 := View.ld_unit_zero (S := S1024x1000) hz _ x0
  have e1 : View.ld x1 r0_1 = x1 := View.ld_unit_zero (S := S1024x10) hz _ x1
  unfold gapVec
  rw [e0, e1]
  unfold k0_pay27
  refine (mulf_apply _ _ _).trans ?_
  refine congrArg₂ (· * ·) rfl ?_
  refine (subf_apply _ _ _).trans ?_
  refine congrArg₂ (· - ·) ?_ ?_
  · refine (shapeCast_col_apply _ _ r 0).trans ?_
    refine (rowMax_apply (a := 1024) (b := 1000) _ _ reduces_S1024x1000_S1024 _ _ r).trans ?_
    unfold Cert.Loss.restMax
    exact congrArg (Finset.fold max _ · Finset.univ) (funext fun c => row10_apply x0 x1 r idx hidx c)
  · refine (shapeCast_col_apply _ _ r 0).trans ?_
    refine (rowMin_apply (a := 1024) (b := 10) _ _ reduces_S1024x10_S1024 _ _ r).trans ?_
    unfold Cert.Loss.pickedMin
    exact congrArg (Finset.fold min _ · Finset.univ) (funext fun k => cat_apply x0 x1 r idx hidx k)

end Cert.Loss.KernelGap

end
-- ==== Proof.KernelRow.lean ====
/-
  One row of the kernel's output block: the body's stored value at row r is the multiplying chain of that row's scores
  and positions.

  The body's last stretch takes the first generalized mean s (carried back) and five times the gap, 5g, of each row, forms the two
  bases 5 + 5g and 5 + 5s, raises each to the tenth power by squarings, halves the sum, roots it as exp(log m · c) and carries the
  result back by (· − 5)/5. With s and 5g read row by row, that is the multiplying chain of the row's picked values and gap.
-/
import proofs.«415077_j32014686224515_3_alg».proof.Proof.KernelSort
import proofs.«415077_j32014686224515_3_alg».proof.Proof.KernelGap
import Idealize.ShloMosaic.Lib.Pipeline.Value

noncomputable section

namespace Cert.Loss.KernelRow

open Idealize.ShloMosaic Idealize.ShloMosaic.ValueIdx Cert.KernelIdeal Cert.KernelIdeal.Gen

/-- The whole-block rectangle starts at the origin. -/
theorem origin2 : (![0, 0] : Fin 2 → Nat) = fun _ => 0 := funext fun a => by fin_cases a <;> rfl

/-- The last stretch of the body at one entry: from the first mean carried back, s, and five times the gap, t, the second
    generalized mean of 5 + t and 5 + 5s, carried back. -/
theorem last_stretch (s t : FVec Ideal S1024x1 .f32) (i : S1024x1.Idx) :
    k0_pay1 (F := Ideal) s t i
      = Ideal.div (Ideal.exp (Ideal.log (Ideal.div (Cert.Loss.pow10K (Cert.Loss.five + t i)
          + Cert.Loss.pow10K (Cert.Loss.five + Cert.Loss.five * s i)) Cert.Loss.two) * Cert.Loss.tenth) - Cert.Loss.five) Cert.Loss.five := rfl

/-- Row r of the block the body stores, when the row's ten position words are the lanes idx. -/
theorem out_row (x0 : Vec Ideal S1024x1000 .f32) (x1 : Vec Ideal S1024x10 .i32) (r : Fin 1024) (idx : Fin 10 → Fin 1000)
    (hidx : ∀ k : Fin 10, x1 (ix2 r k) = BitVec.ofNat 32 (idx k).val) :
    out0_2 (F := Ideal) x0 x1 (ix2 r (0 : Fin 1)) = Cert.Loss.rowK (fun c => x0 (ix2 r c)) idx := by
  rw [Cert.Loss.KernelTerms.out_eq, View.canon_unit_zero origin2, last_stretch,
    Cert.Loss.KernelSort.sort_row x0 x1 r idx hidx, Cert.Loss.KernelGap.gap_row x0 x1 r idx hidx]
  rfl

end Cert.Loss.KernelRow

end
-- ==== Proof.KernelArray.lean ====
/-
  The kernel's run with its result named, and the result read row by row: entry n of the returned vector is the multiplying
  chain of row n of the scores and positions.

  The region walks 32 grid points; point t reads rows 1024·t … 1024·t + 1023 of the scores and of the positions and writes the
  same rows of a one-column output array. So the output array after the run is assembled block by block: its entry (n, 0) is row
  n % 1024 of what the body stores at point n / 1024, and that block's inputs are rows of the two arguments. The one operation
  after the region drops the unit axis: entry n of the returned vector is entry (n, 0) of the output array.
-/
import proofs.«415077_j32014686224515_3_alg».proof.Proof.KernelRow
import Idealize.ShloMosaic.Lib.ValueIdx
import Idealize.ShloMosaic.Lib.Pipeline.Value
import Idealize.ShloMosaic.Lib.Tactic

noncomputable section

namespace Cert.Loss.KernelArray

open Idealize.ShloMosaic Idealize.ShloMosaic.TcCoe Idealize.SL.Sem Idealize.ShloMosaic.ValueIdx Cert.KernelIdeal Cert.KernelIdeal.Gen

/-- What the run leaves in the returned vector: the reshape after the region applied to the region's output array. -/
def result (m : (ℓ : Loc nD τ sig) → Buf (Elt Ideal) ℓ) (c : Dev nD) : Buf (Elt Ideal) ((c.tc : Thread nD τ).loc main_v1) :=
  Pipeline.afterTail₀ cfgs (dats m) 0 (V0 m) [hostOps1] c main_v1

/-! ## The run -/

/-- The returned vector is an unscoped buffer that is no window's array: the region passes it by, and the operation after the
    region is what fills it. -/
theorem returned_bypasses : main_v1 ∈ Pipeline.restRefs sig (cfgs 0).spec := by decide

/-- The run: it terminates with the returned vector at `result` and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v1 returned_bypasses,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The blocks: which rows of the arguments a point reads -/

/-- The three index maps, decided over the grid: at point t every window's block index is (t, 0). -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row r of the scores' block at point t is row 1024·t + r of the scores. -/
theorem scores_block (m : (ℓ : Loc nD τ sig) → Buf (Elt Ideal) ℓ) (c : Dev nD) (t : Fin cfg0.N) (r : Fin 1024) (col : Fin 1000)
    (n : Fin 32768) (hn : n.val = 1024 * t.val + r.val) :
    (iblk m c 0 t : Vec Ideal S1024x1000 .f32) (ix2 r col)
      = (m ((c.tc : Thread nD τ).loc main_arg0) : S32768x1000.Idx → EReal) (ix2 n col) := by
  obtain ⟨e0, e1, -⟩ := index_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 1024 + 1 * r.val = n.val; omega
  | ⟨1, _⟩ => show win0_0.index t (1 : Fin 2) * 1000 + 1 * col.val = col.val; omega

/-- Row r of the positions' block at point t is row 1024·t + r of the positions. -/
theorem positions_block (m : (ℓ : Loc nD τ sig) → Buf (Elt Ideal) ℓ) (c : Dev nD) (t : Fin cfg0.N) (r : Fin 1024) (k : Fin 10)
    (n : Fin 32768) (hn : n.val = 1024 * t.val + r.val) :
    (iblk m c 1 t : Vec Ideal S1024x10 .i32) (ix2 r k)
      = (m ((c.tc : Thread nD τ).loc main_arg1) : S32768x10.Idx → BitVec 32) (ix2 n k) := by
  obtain ⟨-, -, e2, e3, -⟩ := index_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 1024 + 1 * r.val = n.val; omega
  | ⟨1, _⟩ => show win0_1.index t (1 : Fin 2) * 10 + 1 * k.val = k.val; omega

/-! ## The output array, block by block -/

/-- The grid point whose block holds row i of the output array: i / 1024. -/
def pointOf (i : S32768x1.Idx) : Fin cfg0.N :=
  ⟨(i 0).val / 1024, by rw [show cfg0.N = 32 from N_0]; have := idx2_lt0 i; omega⟩

/-- The row inside that block: i % 1024. -/
def rowOf (i : S32768x1.Idx) : Fin 1024 := ⟨(i 0).val % 1024, Nat.mod_lt _ (by decide)⟩

/-- The output array assembled block by block: entry (n, 0) is row n % 1024 of what the body stores at point n / 1024. It is
    kept as the stored blocks themselves, not as a closed function of the arguments: a row's value is a function of its
    position words only once they are known to be lanes. -/
def blockwise (m : (ℓ : Loc nD τ sig) → Buf (Elt Ideal) ℓ) (c : Dev nD) : S32768x1.Idx → EReal := fun i =>
  out0_2 (F := Ideal) (iblk m c 0 (pointOf i)) (iblk m c 1 (pointOf i)) (ix2 (rowOf i) (0 : Fin 1))

/-- At an entry whose row is 1024·t + r it is row r of point t's stored block. -/
theorem blockwise_at (m : (ℓ : Loc nD τ sig) → Buf (Elt Ideal) ℓ) (c : Dev nD) (i : S32768x1.Idx) (t : Fin cfg0.N) (r : Fin 1024)
    (h : (i 0).val = 1024 * t.val + r.val) :
    blockwise m c i = out0_2 (F := Ideal) (iblk m c 0 t) (iblk m c 1 t) (ix2 r (0 : Fin 1)) := by
  have ht : pointOf i = t := Fin.ext (by show (i 0).val / 1024 = t.val; omega)
  have hr : rowOf i = r := Fin.ext (by show (i 0).val % 1024 = r.val; omega)
  unfold blockwise
  rw [ht, hr]

/-- An entry of a stored block depends on its row only: the block has one column. -/
theorem stored_entry (x0 : Vec Ideal S1024x1000 .f32) (x1 : Vec Ideal S1024x10 .i32) (j : S1024x1.Idx) (r : Fin 1024)
    (h : (j 0).val = r.val) :
    out0_2 (F := Ideal) x0 x1 j = out0_2 (F := Ideal) x0 x1 (ix2 r (0 : Fin 1)) := by
  refine congrArg (out0_2 (F := Ideal) x0 x1) (funext fun a => ?_)
  match a with
  | ⟨0, _⟩ => exact Fin.ext h
  | ⟨1, _⟩ => exact Fin.ext (by have := idx2_lt1 j; show (j 1).val = 0; omega)

/-- What point t writes back is block t of the blockwise array: entry j of the block sits at row 1024·t + j of the array, whose
    point is t and whose row inside the block is j. -/
theorem flushed_eq (m : (ℓ : Loc nD τ sig) → Buf (Elt Ideal) ℓ) (c : Dev nD) (t : Fin cfg0.N) :
    (dats m 0 c).flushed 2 t = ((cfg0.win 2).blk t).view.read (Elt Ideal) (blockwise m c) := by
  show (cfg0.win 2).cut (grid0.coords t) ((dats m 0 c).after 2 t) = _
  rw [after0_2]
  obtain ⟨-, -, -, -, e4, e5⟩ := index_facts t
  funext j
  rw [View.read_apply]
  have h0 : (j 0).val < 1024 := (j 0).isLt
  have hh : ((((cfg0.win 2).blk t).view.emb j) 0).val = 1024 * t.val + (j 0).val := by
    show win0_2.index t (0 : Fin 2) * 1024 + 1 * (j 0).val = _; rw [e4]; omega
  refine (stored_entry (iblk m c 0 t) (iblk m c 1 t) ((cfg0.win 2).xinj (grid0.coords t) j) ⟨(j 0).val, h0⟩ rfl).trans ?_
  exact (blockwise_at m c (((cfg0.win 2).blk t).view.emb j) t ⟨(j 0).val, h0⟩ hh).symm.trans (cast_eq _ _).symm

/-- An entry of the output array is in point t's block iff each coordinate is in the block's range on its axis. -/
theorem mem_block (t : Fin cfg0.N) (i : S32768x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- The blocks cover the array: row n lies in the block of point n / 1024. -/
theorem covered (i : S32768x1.Idx) : ∃ t : Fin cfg0.N, (cfg0.win 2).flush t = true ∧ i ∈ ((cfg0.win 2).blk t).view.set := by
  refine ⟨pointOf i, flush0_2 _, ?_⟩
  rw [mem_block]
  obtain ⟨-, -, -, -, e4, e5⟩ := index_facts (pointOf i)
  have hp : (pointOf i).val = (i 0).val / 1024 := rfl
  have h1 : (i 1).val < 1 := idx2_lt1 i
  intro a
  match a with
  | ⟨0, _⟩ => show win0_2.index (pointOf i) (0 : Fin 2) * 1024 ≤ (i 0).val ∧ (i 0).val < win0_2.index (pointOf i) (0 : Fin 2) * 1024 + 1024; omega
  | ⟨1, _⟩ => show win0_2.index (pointOf i) (1 : Fin 2) * 1 ≤ (i 1).val ∧ (i 1).val < win0_2.index (pointOf i) (1 : Fin 2) * 1 + 1; omega

/-- The output array after the run is the blockwise array. -/
theorem final (m : (ℓ : Loc nD τ sig) → Buf (Elt Ideal) ℓ) (c : Dev nD) : (dats m 0 c).arrAt 2 cfg0.N = blockwise m c :=
  (dats m 0 c).arrAt_eq_of_cover 2 (blockwise m c) (fun t _ => flushed_eq m c t) covered

/-! ## The returned vector -/

/-- The returned vector is the one-column output array with its unit axis dropped. -/
theorem result_eq (m : (ℓ : Loc nD τ sig) → Buf (Elt Ideal) ℓ) (c : Dev nD) :
    (result m c : S32768.Idx → EReal) = shapeCast S32768 (blockwise m c) shapeCasts_S32768x1_S32768 := by
  unfold result Pipeline.afterTail₀
  show StableHlo.after hostOps1 _ (Proc.devRef .tc main_v1) = _
  after_results
  exact congrArg (fun A : S32768x1.Idx → EReal => shapeCast S32768 A shapeCasts_S32768x1_S32768)
    ((Pipeline.withArrays_arr spec0 launch0.win.arr_inj c _ _ 2).trans (final m c))

/-- Entry n of the returned vector, when row n's ten position words are the lanes idx. Entry n is entry (n, 0) of the output
    array (the same row-major position), which is row n % 1024 of the block stored at point n / 1024; that block's value at a row
    is the multiplying chain of the row's scores and positions, and those are rows of the two arguments. -/
theorem result_row (m : (ℓ : Loc nD τ sig) → Buf (Elt Ideal) ℓ) (c : Dev nD) (n : Fin 32768) (idx : Fin 10 → Fin 1000)
    (hidx : ∀ k : Fin 10, (m ((c.tc : Thread nD τ).loc main_arg1) : S32768x10.Idx → BitVec 32) (ix2 n k) = BitVec.ofNat 32 (idx k).val) :
    (result m c : S32768.Idx → EReal) (ix1 n)
      = Cert.Loss.rowK (fun col => (m ((c.tc : Thread nD τ).loc main_arg0) : S32768x1000.Idx → EReal) (ix2 n col)) idx := by
  have hn : n.val < 32768 := n.isLt
  have ht : n.val / 1024 < cfg0.N := by rw [show cfg0.N = 32 from N_0]; omega
  have hr : n.val % 1024 < 1024 := Nat.mod_lt _ (by decide)
  have hsplit : n.val = 1024 * (n.val / 1024) + n.val % 1024 := (Nat.div_add_mod n.val 1024).symm
  refine (congrFun (result_eq m c) (ix1 n)).trans ?_
  refine (shapeCast_apply (blockwise m c) shapeCasts_S32768x1_S32768 (ix1 n) (ix2 n (0 : Fin 1)) ?_).trans ?_
  · rw [Shape.rowMajor_val_two, Shape.rowMajor_val_one]
    show n.val * 1 + 0 = n.val
    omega
  refine (blockwise_at m c (ix2 n (0 : Fin 1)) ⟨n.val / 1024, ht⟩ ⟨n.val % 1024, hr⟩ hsplit).trans ?_
  refine (Cert.Loss.KernelRow.out_row (iblk m c 0 ⟨n.val / 1024, ht⟩) (iblk m c 1 ⟨n.val / 1024, ht⟩) ⟨n.val % 1024, hr⟩ idx
    (fun k => (positions_block m c ⟨n.val / 1024, ht⟩ ⟨n.val % 1024, hr⟩ k n hsplit).trans (hidx k))).trans ?_
  exact congrArg (fun x => Cert.Loss.rowK x idx)
    (funext fun col => scores_block m c ⟨n.val / 1024, ht⟩ ⟨n.val % 1024, hr⟩ col n hsplit)

end Cert.Loss.KernelArray

end
-- ==== Proof.RefStage.lean ====
/-
  The reference's first stage read at a row: the gathered softmax values are the picked ones, and the masked maximum minus
  their minimum is the gap.

  The row maximum, the masked maximum and the minimum of the ten gathered values are reduces over one axis, read as folds
  over that axis's coordinates. The ten position words of the row are lanes below 1000, so neither wrap-around select
  changes them, both range tests pass, and the gather reads the softmax row at the lane. The mask is a scatter of the one
  flag at the pairs (row, lane): whatever order the updates come in, a position is flagged exactly when some update
  lands on it, and an update lands in row n only from row n's own ten pairs.
-/
import proofs.«415077_j32014686224515_3_alg».proof.Proof.RefRead
import proofs.«415077_j32014686224515_3_alg».proof.Proof.Spec
import Idealize.ShloMosaic.Lib.ValueIdx
import Idealize.ShloMosaic.PureOps.Reduce
import Idealize.ShloMosaic.PureOps.Ideal.Laws
import Idealize.ShloMosaic.Lib.StableHlo.Predicate

noncomputable section

namespace Cert.Loss.RefStage

open Idealize.ShloMosaic Idealize.ShloMosaic.ValueIdx Cert.ReferenceIdeal Cert.ReferenceIdeal.ReadP

abbrev X0 := (⟨S32768x1000, .f32⟩ : BufTy).Contents (Elt Ideal)
abbrev X1 := (⟨S32768x10, .i32⟩ : BufTy).Contents (Elt Ideal)

/-! ## The three reductions over one axis, as folds over that axis's coordinates -/

theorem red1000 : S32768x1000.Reduces [1] S32768 := by decide

theorem lift1000 (n : Fin 32768) (c : Fin 1000) : red1000.lift (ix1 n) c = ix2 n c := by
  funext a; refine Fin.ext ?_
  match a with
  | ⟨0, _⟩ => rfl
  | ⟨1, _⟩ => rfl

theorem red10 : S32768x10.Reduces [1] S32768 := by decide

theorem lift10 (n : Fin 32768) (k : Fin 10) : red10.lift (ix1 n) k = ix2 n k := by
  funext a; refine Fin.ext ?_
  match a with
  | ⟨0, _⟩ => rfl
  | ⟨1, _⟩ => rfl

theorem red10x1 : S32768x10x1.Reduces [2] S32768x10 := by decide

/-- A row's maximum-reduce is the fold of max over the row's 1000 columns. -/
theorem reduce_row_max (y : S32768x1000.Idx → EReal) (init : S_.Idx → EReal) (n : Fin 32768) :
    Host.reduce (FloatOps.maximumf (F := Ideal) (φ := .f32)) y init Gen.reducesTo_S32768x1000_S32768_d1 Gen.h_S_ (ix1 n)
      = (Finset.univ : Finset (Fin 1000)).fold max (init (Shape.Idx.first Gen.h_S_)) (fun c => y (ix2 n c)) := by
  rw [Host.reduce_eq_fold_single _ _ _ _ red1000]
  congr 1
  funext c
  exact congrArg y (lift1000 n c)

/-- A row's minimum-reduce over ten columns is the fold of min over them. -/
theorem reduce_row_min (y : S32768x10.Idx → EReal) (init : S_.Idx → EReal) (n : Fin 32768) :
    Host.reduce (FloatOps.minimumf (F := Ideal) (φ := .f32)) y init Gen.reducesTo_S32768x10_S32768_d1 Gen.h_S_ (ix1 n)
      = (Finset.univ : Finset (Fin 10)).fold min (init (Shape.Idx.first Gen.h_S_)) (fun k => y (ix2 n k)) := by
  rw [Host.reduce_eq_fold_single _ _ _ _ red10]
  congr 1
  funext k
  exact congrArg y (lift10 n k)

/-! ## The softmax of a row -/

theorem negInf_eq_bot : Ideal.ofBits .f32 0xFF800000#32 = (⊥ : EReal) := by simp [Ideal.ofBits, Ideal.ieee]

theorem rowmax_eq (x0 : X0) (n : Fin 32768) :
    val_main_v0 (F := Ideal) x0 (ix1 n) = Cert.Loss.rowMax (fun c => x0 (ix2 n c)) := by
  unfold val_main_v0
  rw [reduce_row_max, val_main_cst_apply]
  rfl

theorem expShift_eq (x0 : X0) (n : Fin 32768) (c : Fin 1000) :
    val_main_v6 (F := Ideal) x0 (ix2 n c) = Cert.Loss.expShift (fun c => x0 (ix2 n c)) c := by
  rw [val_main_v6_apply, val_main_v5_apply, val_main_v4_apply, val_main_v3_apply, val_main_v2_apply, val_main_v1_apply,
    val_main_cst_0_apply]
  have e : idx_main_v3 (idx_main_v4 (ix2 n c)) = ix1 n := by
    funext a; match a with | ⟨0, _⟩ => rfl
  rw [e, rowmax_eq]
  simp only [Ideal.hostUnary_exp_def, Ideal.subf_def, Ideal.maximumf_def, Ideal.ofBits_def]
  rw [negInf_eq_bot, max_eq_right bot_le]
  rfl

theorem denom_eq (x0 : X0) (n : Fin 32768) :
    val_main_v7 (F := Ideal) x0 (ix1 n) = Cert.Loss.denom (fun c => x0 (ix2 n c)) := by
  rw [val_main_v7_apply, val_main_cst_1_apply]
  unfold Cert.Loss.denom Cert.Loss.zero
  refine congrArg (_ + ·) (Finset.sum_congr rfl fun k _ => ?_)
  have e : idx_main_v7 (ix1 n) k = ix2 n k := by
    funext a; match a with | ⟨0, _⟩ => rfl | ⟨1, _⟩ => rfl
  rw [e, expShift_eq]

theorem prob_eq (x0 : X0) (n : Fin 32768) (c : Fin 1000) :
    val_main_v10 (F := Ideal) x0 (ix2 n c) = Cert.Loss.prob (fun c => x0 (ix2 n c)) c := by
  rw [val_main_v10_apply, val_main_v9_apply, val_main_v8_apply]
  have e : idx_main_v8 (idx_main_v9 (ix2 n c)) = ix1 n := by
    funext a; match a with | ⟨0, _⟩ => rfl
  rw [e, denom_eq, expShift_eq]
  rfl

/-! ## Words: a lane below 2³¹ read signed -/

open Idealize.ShloMosaic.StableHlo.Predicate in
/-- A word below 2³¹ is not signed-negative, so a wrap-around select leaves it. -/
theorem wrap_small (j : Nat) (hj : j < 2 ^ 31) (b : BitVec 32) :
    Scalar.select (IntOp.cmpi .slt (BitVec.ofNat 32 j) 0#32) b (BitVec.ofNat 32 j) = BitVec.ofNat 32 j := by
  have hn : (BitVec.ofNat 32 j).toNat = j := by
    simp only [BitVec.toNat_ofNat]; omega
  have h : ¬ IntOp.cmpi .slt (BitVec.ofNat 32 j) 0#32 = 1#1 := by
    rw [slt_iff_toNat (by omega) (by decide)]
    simp
  exact if_neg h

theorem word_toNat (j : Fin 1000) : (BitVec.ofNat 32 j.val).toNat = j.val := by
  simp only [BitVec.toNat_ofNat]; have := j.isLt; omega

/-! ## take_along_axis: the gather of the softmax row at the ten lanes -/

section Take
open Idealize.ShloMosaic.StableHlo.Predicate
variable (x0 : X0) (x1 : X1) (n : Fin 32768) (idx : Fin 10 → Fin 1000)
  (hidx : ∀ k : Fin 10, x1 (ix2 n k) = BitVec.ofNat 32 (idx k).val)
include hidx

theorem call0_v4_eq (k : Fin 10) : val_main_call0_v4 (F := Ideal) x1 (ix2 n k) = BitVec.ofNat 32 (idx k).val := by
  rw [val_main_call0_v4_apply, val_main_call0_v1_apply, val_main_call0_v0_apply, val_main_call0_c_apply, hidx]
  exact wrap_small _ (by have := (idx k).isLt; omega) _

theorem call0_v5_eq (k : Fin 10) : val_main_call0_v5 (F := Ideal) x1 (ix3 n k 0) = BitVec.ofNat 32 (idx k).val := by
  rw [val_main_call0_v5_apply]
  have e : idx_main_call0_v5 (ix3 n k (0 : Fin 1)) = ix2 n k := by
    funext a; refine Fin.ext ?_
    match a with
    | ⟨0, _⟩ => show ((n.val * 10 + k.val) * 1 + 0) / 10 = n.val; omega
    | ⟨1, _⟩ => show ((n.val * 10 + k.val) * 1 + 0) % 10 = k.val; omega
  rw [e]
  exact call0_v4_eq x1 n idx hidx k

/-- Both range tests pass at a lane word. -/
theorem call0_v11_eq (k : Fin 10) : val_main_call0_v11 (F := Ideal) x1 (ix3 n k 0) = 1#1 := by
  rw [val_main_call0_v11_apply, val_main_call0_v7_apply, val_main_call0_v10_apply, call0_v5_eq x1 n idx hidx k,
    val_main_call0_v6_apply, val_main_call0_c_2_apply, val_main_call0_v9_apply, val_main_call0_v8_apply,
    val_main_call0_c_1_apply]
  have hj := word_toNat (idx k)
  have hlt := (idx k).isLt
  rw [IntOp.andi_eq_one, sge_iff_toNat (by omega) (by decide), sle_iff_toNat (by omega) (by decide), hj]
  constructor
  · simp
  · show (idx k).val ≤ 999; omega

/-- The reduce-and over the unit axis of the range tests is true. -/
theorem call0_v12_eq (k : Fin 10) : val_main_call0_v12 (F := Ideal) x1 (ix2 n k) = 1#1 := by
  have h11 := call0_v11_eq x1 n idx hidx k
  unfold val_main_call0_v12
  generalize val_main_call0_v11 (F := Ideal) x1 = y at h11 ⊢
  rw [Host.reduce_eq_fold_single _ _ _ _ red10x1]
  have e : ∀ c : Fin 1, red10x1.lift (ix2 n k) c = ix3 n k 0 := by
    intro c
    funext a; refine Fin.ext ?_
    match a with
    | ⟨0, _⟩ => rfl
    | ⟨1, _⟩ => rfl
    | ⟨2, _⟩ => show c.val = 0; omega
  have hf : (y ∘ red10x1.lift (ix2 n k)) = fun _ => 1#1 := by
    funext c
    exact (congrArg y (e c)).trans h11
  rw [hf]
  show (Finset.univ : Finset (Fin 1)).fold IntOp.andi 1#1 (fun _ => 1#1) = 1#1
  rw [Finset.univ_unique, Finset.fold_singleton]
  rfl

/-- The gather with batch row n and start column the lane word reads the softmax row at the lane. -/
theorem call0_v13_eq (k : Fin 10) :
    val_main_call0_v13 (F := Ideal) x0 x1 (ix2 n k) = val_main_v10 (F := Ideal) x0 (ix2 n (idx k)) := by
  unfold val_main_call0_v13 Host.gather
  refine congrArg (val_main_v10 (F := Ideal) x0) ?_
  funext a; refine Fin.ext ?_
  match a with
  | ⟨0, _⟩ =>
    show gather_S32768x1000_S32768x10x1_S32768x10_n_1_0_0_1_2_11.start (ix2 n k) (val_main_call0_v5 (F := Ideal) x1) 0
        + gather_S32768x1000_S32768x10x1_S32768x10_n_1_0_0_1_2_11.batchCoord (ix2 n k) 0
        + gather_S32768x1000_S32768x10x1_S32768x10_n_1_0_0_1_2_11.offCoord (ix2 n k) 0 = n.val
    rw [GatherDims.start_batching _ _ _ _ (List.mem_singleton.mpr rfl), GatherDims.offCoord_eq_zero _ _ _ (by decide)]
    unfold GatherDims.batchCoord
    rw [dif_pos (show (0 : Fin 2) ∈ gather_S32768x1000_S32768x10x1_S32768x10_n_1_0_0_1_2_11.operandBatchingDims from List.mem_singleton.mpr rfl),
      Nat.zero_add, Nat.add_zero]
    rfl
  | ⟨1, _⟩ =>
    show gather_S32768x1000_S32768x10x1_S32768x10_n_1_0_0_1_2_11.start (ix2 n k) (val_main_call0_v5 (F := Ideal) x1) 1
        + gather_S32768x1000_S32768x10x1_S32768x10_n_1_0_0_1_2_11.batchCoord (ix2 n k) 1
        + gather_S32768x1000_S32768x10x1_S32768x10_n_1_0_0_1_2_11.offCoord (ix2 n k) 1 = (idx k).val
    rw [GatherDims.batchCoord_eq_zero _ _ _ (by decide), GatherDims.offCoord_eq_zero _ _ _ (by decide)]
    unfold GatherDims.start
    rw [dif_pos (show (1 : Fin 2) ∈ gather_S32768x1000_S32768x10x1_S32768x10_n_1_0_0_1_2_11.startIndexMap from List.mem_singleton.mpr rfl)]
    have hsi : gather_S32768x1000_S32768x10x1_S32768x10_n_1_0_0_1_2_11.siIdx (ix2 n k)
        ⟨List.idxOf (1 : Fin 2) gather_S32768x1000_S32768x10x1_S32768x10_n_1_0_0_1_2_11.startIndexMap,
          List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi, call0_v5_eq x1 n idx hidx k]
    have hlt := (idx k).isLt
    rw [toInt_ofNat_small _ (by omega)]
    show min ((idx k).val : Int).toNat (1000 - 1) + 0 + 0 = (idx k).val
    rw [Int.toNat_natCast]
    omega

end Take

/-- The value gathered at (n, k), when row n's ten position words are the lanes idx. -/
theorem picked_eq (x0 : (⟨S32768x1000, .f32⟩ : BufTy).Contents (Elt Ideal)) (x1 : (⟨S32768x10, .i32⟩ : BufTy).Contents (Elt Ideal))
    (n : Fin 32768) (idx : Fin 10 → Fin 1000) (hidx : ∀ k : Fin 10, x1 (ix2 n k) = BitVec.ofNat 32 (idx k).val) (k : Fin 10) :
    val_main_v11 (F := Ideal) x0 x1 (ix2 n k) = Cert.Loss.picked (fun c => x0 (ix2 n c)) idx k := by
  rw [val_main_v11_apply, call0_v12_eq x1 n idx hidx k, call0_v13_eq x0 x1 n idx hidx k, select_one, prob_eq]
  rfl

/-! ## The mask: the flag scattered at the pairs (row, lane) -/
/-- The row word of the scatter index: the row's own number. -/
theorem rowword_eq (n' : Fin 32768) : val_main_v19 (F := Ideal) (ix2 n' (0 : Fin 1)) = BitVec.ofNat 32 n'.val := by
  rw [val_main_v19_apply, val_main_v16_apply, val_main_v15_apply, val_main_c_2_apply, val_main_v13_apply, val_main_v12_apply]
  exact wrap_small _ (by have := n'.isLt; show n'.val < 2 ^ 31; omega) _

theorem v28_row (x1 : X1) (n' : Fin 32768) (k : Fin 10) :
    val_main_v28 (F := Ideal) x1 (ix3 n' k (0 : Fin 2)) = BitVec.ofNat 32 n'.val := by
  unfold val_main_v28
  refine (concatenate_pair_apply_left (t := S32768x10x2) (s₁ := S32768x10x1) (s₂ := S32768x10x1) _ _ _ _ (ix3 n' k (0 : Fin 2)) rfl (ix3 n' k (0 : Fin 1)) ?_).trans ?_
  · intro b
    match b with
    | ⟨0, _⟩ => rfl
    | ⟨1, _⟩ => rfl
    | ⟨2, _⟩ => rfl
  · rw [val_main_v26_apply, val_main_v25_apply]
    have e : idx_main_v25 (idx_main_v26 (ix3 n' k (0 : Fin 1))) = ix2 n' (0 : Fin 1) := by
      funext a; match a with | ⟨0, _⟩ => rfl | ⟨1, _⟩ => rfl
    rw [e]; exact rowword_eq n'

theorem v28_col (x1 : X1) (n' : Fin 32768) (k : Fin 10) :
    val_main_v28 (F := Ideal) x1 (ix3 n' k (1 : Fin 2)) = val_main_v24 (F := Ideal) x1 (ix2 n' k) := by
  unfold val_main_v28
  refine (concatenate_pair_apply_right (t := S32768x10x2) (s₁ := S32768x10x1) (s₂ := S32768x10x1) _ _ _ _ (ix3 n' k (1 : Fin 2)) rfl rfl (ix3 n' k (0 : Fin 1)) ?_ ?_).trans ?_
  · intro b
    match b with
    | ⟨0, _⟩ => exact fun _ => rfl
    | ⟨1, _⟩ => exact fun _ => rfl
    | ⟨2, _⟩ => exact fun h => absurd rfl h
  · rfl
  · rw [val_main_v27_apply]
    have e : idx_main_v27 (ix3 n' k (0 : Fin 1)) = ix2 n' k := by
      funext a; match a with | ⟨0, _⟩ => rfl | ⟨1, _⟩ => rfl
    rw [e]

/-- A left fold of steps that each either mark one position with the constant v or leave the array alone:
    a position some step marks ends at v, a position no step marks keeps its first value. -/
theorem foldl_mark {ι κ β : Type} (g : ι → Option κ) (v : β) (step : (κ → β) → ι → (κ → β))
    (hhit : ∀ r m p, g m = some p → step r m p = v)
    (hmiss : ∀ r m i, g m ≠ some i → step r m i = r i) :
    ∀ (l : List ι) (r : κ → β) (i : κ),
      ((∃ m ∈ l, g m = some i) → l.foldl step r i = v) ∧ ((∀ m ∈ l, g m ≠ some i) → l.foldl step r i = r i)
  | [], r, i => ⟨fun ⟨_, hm, _⟩ => (nomatch hm), fun _ => rfl⟩
  | a :: l, r, i => by
    have ih := foldl_mark g v step hhit hmiss l (step r a) i
    rw [List.foldl_cons]
    constructor
    · rintro ⟨m, hm, hg⟩
      by_cases hl : ∃ m ∈ l, g m = some i
      · exact ih.1 hl
      · have hl' : ∀ m ∈ l, g m ≠ some i := fun m' hm' e => hl ⟨m', hm', e⟩
        rcases List.mem_cons.1 hm with rfl | hm
        · rw [ih.2 hl']; exact hhit r m i hg
        · exact absurd hg (hl' m hm)
    · intro h
      rw [ih.2 fun m hm => h m (List.mem_cons_of_mem _ hm)]
      exact hmiss r a i (h a List.mem_cons_self)

section Mask
open Idealize.ShloMosaic.StableHlo.Predicate
variable (x1 : X1) (n : Fin 32768) (idx : Fin 10 → Fin 1000)

theorem sc_window (j : S32768x10.Idx) (a : Fin 2) :
    scatter_S32768x1000_S32768x10x2_S32768x10_n_01_01_2.window j a = 0 := by
  unfold ScatterDims.window
  match a with
  | ⟨0, _⟩ => exact dif_neg (show (0 : Fin 2) ∉ scatter_S32768x1000_S32768x10x2_S32768x10_n_01_01_2.sKept from by decide)
  | ⟨1, _⟩ => exact dif_neg (show (1 : Fin 2) ∉ scatter_S32768x1000_S32768x10x2_S32768x10_n_01_01_2.sKept from by decide)

theorem sc_start0 (n' : Fin 32768) (k : Fin 10) :
    scatter_S32768x1000_S32768x10x2_S32768x10_n_01_01_2.start (ix2 n' k) (val_main_v28 (F := Ideal) x1) 0 = (n'.val : Int) := by
  unfold ScatterDims.start
  rw [dif_pos (show (0 : Fin 2) ∈ scatter_S32768x1000_S32768x10x2_S32768x10_n_01_01_2.scatterDimsToOperandDims from by decide)]
  have hsi : scatter_S32768x1000_S32768x10x2_S32768x10_n_01_01_2.siIdx (ix2 n' k)
      ⟨List.idxOf (0 : Fin 2) scatter_S32768x1000_S32768x10x2_S32768x10_n_01_01_2.scatterDimsToOperandDims,
        List.idxOf_lt_length_iff.2 (by decide)⟩ = ix3 n' k (0 : Fin 2) := by
    funext b; refine Fin.ext ?_
    match b with
    | ⟨0, _⟩ => rfl
    | ⟨1, _⟩ => rfl
    | ⟨2, _⟩ => rfl
  rw [hsi, v28_row, toInt_ofNat_small _ (by have := n'.isLt; omega)]

theorem sc_start1 (n' : Fin 32768) (k : Fin 10) :
    scatter_S32768x1000_S32768x10x2_S32768x10_n_01_01_2.start (ix2 n' k) (val_main_v28 (F := Ideal) x1) 1
      = (val_main_v24 (F := Ideal) x1 (ix2 n' k)).toInt := by
  unfold ScatterDims.start
  rw [dif_pos (show (1 : Fin 2) ∈ scatter_S32768x1000_S32768x10x2_S32768x10_n_01_01_2.scatterDimsToOperandDims from by decide)]
  have hsi : scatter_S32768x1000_S32768x10x2_S32768x10_n_01_01_2.siIdx (ix2 n' k)
      ⟨List.idxOf (1 : Fin 2) scatter_S32768x1000_S32768x10x2_S32768x10_n_01_01_2.scatterDimsToOperandDims,
        List.idxOf_lt_length_iff.2 (by decide)⟩ = ix3 n' k (1 : Fin 2) := by
    funext b; refine Fin.ext ?_
    match b with
    | ⟨0, _⟩ => rfl
    | ⟨1, _⟩ => rfl
    | ⟨2, _⟩ => rfl
  rw [hsi, v28_col]

end Mask

section Mask1
variable (x1 : X1) (n : Fin 32768)

/-- The scatter of the flag, read at (n, c) through the fold of its updates. -/
theorem mask_fold (c : Fin 1000) :
    ((∃ m ∈ List.finRange S32768x10.numel,
        scatter_S32768x1000_S32768x10x2_S32768x10_n_01_01_2.resultIdx? (S32768x10.rowMajor.symm m) (val_main_v28 (F := Ideal) x1)
          = some (ix2 n c)) →
      val_main_v30 (F := Ideal) x1 (ix2 n c) = 1#1) ∧
    ((∀ m ∈ List.finRange S32768x10.numel,
        scatter_S32768x1000_S32768x10x2_S32768x10_n_01_01_2.resultIdx? (S32768x10.rowMajor.symm m) (val_main_v28 (F := Ideal) x1)
          ≠ some (ix2 n c)) →
      val_main_v30 (F := Ideal) x1 (ix2 n c) = val_main_v14 (F := Ideal) (ix2 n c)) := by
  unfold val_main_v30 Host.scatter
  refine foldl_mark (fun m => scatter_S32768x1000_S32768x10x2_S32768x10_n_01_01_2.resultIdx? (S32768x10.rowMajor.symm m)
    (val_main_v28 (F := Ideal) x1)) 1#1 _ ?_ ?_ _ _ _
  · intro r m p h
    simp only [h]
    rw [if_pos True.intro, val_main_v29_apply, val_main_c_6_apply]
  · intro r m i h
    cases hg : scatter_S32768x1000_S32768x10x2_S32768x10_n_01_01_2.resultIdx? (S32768x10.rowMajor.symm m)
        (val_main_v28 (F := Ideal) x1) with
    | none => simp only [hg]
    | some p =>
      simp only [hg]
      rw [if_neg]
      intro e
      exact h (by rw [hg, e])

end Mask1

section Mask2
open Idealize.ShloMosaic.StableHlo.Predicate
variable (x1 : X1) (n : Fin 32768) (idx : Fin 10 → Fin 1000)
  (hidx : ∀ k : Fin 10, x1 (ix2 n k) = BitVec.ofNat 32 (idx k).val)
include hidx

theorem v24_eq (k : Fin 10) : val_main_v24 (F := Ideal) x1 (ix2 n k) = BitVec.ofNat 32 (idx k).val := by
  rw [val_main_v24_apply, val_main_v21_apply, val_main_v20_apply, val_main_c_4_apply, hidx]
  exact wrap_small _ (by have := (idx k).isLt; omega) _

theorem sc_start1' (k : Fin 10) :
    scatter_S32768x1000_S32768x10x2_S32768x10_n_01_01_2.start (ix2 n k) (val_main_v28 (F := Ideal) x1) 1 = ((idx k).val : Int) := by
  rw [sc_start1, v24_eq x1 n idx hidx k, toInt_ofNat_small _ (by have := (idx k).isLt; omega)]

theorem sc_hit (k : Fin 10) :
    scatter_S32768x1000_S32768x10x2_S32768x10_n_01_01_2.resultIdx? (ix2 n k) (val_main_v28 (F := Ideal) x1) = some (ix2 n (idx k)) := by
  unfold ScatterDims.resultIdx?
  have hs0 := sc_start0 x1 n k
  have hs1 := sc_start1' x1 n idx hidx k
  have hn := n.isLt
  have hk := (idx k).isLt
  have hb : ∀ a, 0 ≤ scatter_S32768x1000_S32768x10x2_S32768x10_n_01_01_2.start (ix2 n k) (val_main_v28 (F := Ideal) x1) a
        + scatter_S32768x1000_S32768x10x2_S32768x10_n_01_01_2.window (ix2 n k) a
      ∧ scatter_S32768x1000_S32768x10x2_S32768x10_n_01_01_2.start (ix2 n k) (val_main_v28 (F := Ideal) x1) a
        + scatter_S32768x1000_S32768x10x2_S32768x10_n_01_01_2.window (ix2 n k) a < S32768x1000.size a := by
    intro a
    match a with
    | ⟨0, _⟩ =>
      show 0 ≤ scatter_S32768x1000_S32768x10x2_S32768x10_n_01_01_2.start (ix2 n k) (val_main_v28 (F := Ideal) x1) 0
          + (scatter_S32768x1000_S32768x10x2_S32768x10_n_01_01_2.window (ix2 n k) 0 : Int)
        ∧ scatter_S32768x1000_S32768x10x2_S32768x10_n_01_01_2.start (ix2 n k) (val_main_v28 (F := Ideal) x1) 0
          + (scatter_S32768x1000_S32768x10x2_S32768x10_n_01_01_2.window (ix2 n k) 0 : Int) < ((32768 : Nat) : Int)
      rw [hs0, sc_window]; omega
    | ⟨1, _⟩ =>
      show 0 ≤ scatter_S32768x1000_S32768x10x2_S32768x10_n_01_01_2.start (ix2 n k) (val_main_v28 (F := Ideal) x1) 1
          + (scatter_S32768x1000_S32768x10x2_S32768x10_n_01_01_2.window (ix2 n k) 1 : Int)
        ∧ scatter_S32768x1000_S32768x10x2_S32768x10_n_01_01_2.start (ix2 n k) (val_main_v28 (F := Ideal) x1) 1
          + (scatter_S32768x1000_S32768x10x2_S32768x10_n_01_01_2.window (ix2 n k) 1 : Int) < ((1000 : Nat) : Int)
      rw [hs1, sc_window]; omega
  rw [dif_pos hb]
  refine congrArg some ?_
  funext a; refine Fin.ext ?_
  match a with
  | ⟨0, _⟩ =>
    show (scatter_S32768x1000_S32768x10x2_S32768x10_n_01_01_2.start (ix2 n k) (val_main_v28 (F := Ideal) x1) 0
        + (scatter_S32768x1000_S32768x10x2_S32768x10_n_01_01_2.window (ix2 n k) 0 : Int)).toNat = n.val
    rw [hs0, sc_window]; omega
  | ⟨1, _⟩ =>
    show (scatter_S32768x1000_S32768x10x2_S32768x10_n_01_01_2.start (ix2 n k) (val_main_v28 (F := Ideal) x1) 1
        + (scatter_S32768x1000_S32768x10x2_S32768x10_n_01_01_2.window (ix2 n k) 1 : Int)).toNat = (idx k).val
    rw [hs1, sc_window]; omega

end Mask2

section Mask3
open Idealize.ShloMosaic.StableHlo.Predicate
variable (x0 : X0) (x1 : X1) (n : Fin 32768) (idx : Fin 10 → Fin 1000)
  (hidx : ∀ k : Fin 10, x1 (ix2 n k) = BitVec.ofNat 32 (idx k).val)
include hidx

theorem sc_of_hit (j : S32768x10.Idx) (c : Fin 1000)
    (h : scatter_S32768x1000_S32768x10x2_S32768x10_n_01_01_2.resultIdx? j (val_main_v28 (F := Ideal) x1) = some (ix2 n c)) :
    ∃ k, idx k = c := by
  obtain ⟨n', k, rfl⟩ : ∃ n' k, j = ix2 n' k := ⟨j 0, j 1, eq_ix2 j⟩
  unfold ScatterDims.resultIdx? at h
  split at h
  · have h' := Option.some.inj h
    have e0 : (scatter_S32768x1000_S32768x10x2_S32768x10_n_01_01_2.start (ix2 n' k) (val_main_v28 (F := Ideal) x1) 0
        + (scatter_S32768x1000_S32768x10x2_S32768x10_n_01_01_2.window (ix2 n' k) 0 : Int)).toNat = n.val :=
      congrArg (fun f : S32768x1000.Idx => (f 0).val) h'
    rw [sc_start0, sc_window] at e0
    have hn : n' = n := Fin.ext (by omega)
    have e1 : (scatter_S32768x1000_S32768x10x2_S32768x10_n_01_01_2.start (ix2 n' k) (val_main_v28 (F := Ideal) x1) 1
        + (scatter_S32768x1000_S32768x10x2_S32768x10_n_01_01_2.window (ix2 n' k) 1 : Int)).toNat = c.val :=
      congrArg (fun f : S32768x1000.Idx => (f 1).val) h'
    rw [hn, sc_start1' x1 n idx hidx k, sc_window] at e1
    exact ⟨k, Fin.ext (by omega)⟩
  · exact absurd h (by simp)

theorem mask_hit (c : Fin 1000) (h : ∃ k, idx k = c) : val_main_v30 (F := Ideal) x1 (ix2 n c) = 1#1 := by
  obtain ⟨k, rfl⟩ := h
  refine (mask_fold x1 n (idx k)).1 ⟨S32768x10.rowMajor (ix2 n k), List.mem_finRange _, ?_⟩
  rw [Equiv.symm_apply_apply]
  exact sc_hit x1 n idx hidx k

theorem mask_miss (c : Fin 1000) (h : ¬ ∃ k, idx k = c) : val_main_v30 (F := Ideal) x1 (ix2 n c) = 0#1 := by
  rw [(mask_fold x1 n c).2 fun m _ e => h (sc_of_hit x1 n idx hidx _ c e), val_main_v14_apply, val_main_c_apply]

theorem masked_eq (c : Fin 1000) :
    val_main_v31 (F := Ideal) x0 x1 (ix2 n c) = Cert.Loss.masked (fun c => x0 (ix2 n c)) idx c := by
  rw [val_main_v31_apply]
  unfold Cert.Loss.masked
  split_ifs with h
  · rw [mask_hit x1 n idx hidx c h, select_one, val_main_call1_v1_apply, val_main_call1_v0_apply, val_main_cst_7_apply]
    rfl
  · rw [mask_miss x1 n idx hidx c h, select_zero, prob_eq]

theorem restMax_eq :
    val_main_v32 (F := Ideal) x0 x1 (ix1 n) = Cert.Loss.restMax (fun c => x0 (ix2 n c)) idx := by
  unfold val_main_v32
  rw [reduce_row_max, val_main_cst_8_apply]
  simp only [masked_eq x0 x1 n idx hidx]
  rfl

theorem pickedMin_eq :
    val_main_v33 (F := Ideal) x0 x1 (ix1 n) = Cert.Loss.pickedMin (fun c => x0 (ix2 n c)) idx := by
  unfold val_main_v33
  rw [reduce_row_min, val_main_cst_9_apply]
  simp only [picked_eq x0 x1 n idx hidx]
  rfl

end Mask3

/-- The masked maximum minus the gathered minimum at row n. -/
theorem gap_eq (x0 : (⟨S32768x1000, .f32⟩ : BufTy).Contents (Elt Ideal)) (x1 : (⟨S32768x10, .i32⟩ : BufTy).Contents (Elt Ideal))
    (n : Fin 32768) (idx : Fin 10 → Fin 1000) (hidx : ∀ k : Fin 10, x1 (ix2 n k) = BitVec.ofNat 32 (idx k).val) :
    val_main_v34 (F := Ideal) x0 x1 (ix1 n)
      = Cert.Loss.restMax (fun c => x0 (ix2 n c)) idx - Cert.Loss.pickedMin (fun c => x0 (ix2 n c)) idx := by
  rw [val_main_v34_apply, restMax_eq x0 x1 n idx hidx, pickedMin_eq x0 x1 n idx hidx]
  rfl

end Cert.Loss.RefStage

end
-- ==== Proof.RefTail.lean ====
/-
  The reference's second stage read at a row: from the ten gathered values and the gap, the returned entry is the
  real-power chain.
-/
import proofs.«415077_j32014686224515_3_alg».proof.Proof.RefRead
import proofs.«415077_j32014686224515_3_alg».proof.Proof.Spec
import Idealize.ShloMosaic.Lib.ValueIdx

noncomputable section

namespace Cert.Loss.RefTail

open Idealize.ShloMosaic Idealize.ShloMosaic.ValueIdx Cert.ReferenceIdeal Cert.ReferenceIdeal.ReadP

/-- The difference stage at (n, j): the next gathered value minus this one. -/
theorem diff_at (x0 : (⟨S32768x1000, .f32⟩ : BufTy).Contents (Elt Ideal)) (x1 : (⟨S32768x10, .i32⟩ : BufTy).Contents (Elt Ideal))
    (n : Fin 32768) (q : Fin 10 → EReal)
    (hq : ∀ k : Fin 10, val_main_v11 (F := Ideal) x0 x1 (ix2 n k) = q k) (j : Fin 9) :
    val_main_v35 (F := Ideal) x0 x1 (ix2 n j) = q j.succ - q j.castSucc := by
  have e0 : idx_main_call2_v0 (ix2 n j) = ix2 n j.succ :=
    funext fun a => Fin.ext (by
      match a with
      | ⟨0, _⟩ => rfl
      | ⟨1, _⟩ => show 1 + j.val = j.val + 1; omega)
  have e1 : idx_main_call2_v1 (ix2 n j) = ix2 n j.castSucc :=
    funext fun a => Fin.ext (by
      match a with
      | ⟨0, _⟩ => rfl
      | ⟨1, _⟩ => rfl)
  rw [val_main_v35_apply, val_main_call2_v0_apply, val_main_call2_v1_apply, e0, e1, hq, hq]
  rfl

/-- The first mean's base at (n, j). -/
theorem base_at (x0 : (⟨S32768x1000, .f32⟩ : BufTy).Contents (Elt Ideal)) (x1 : (⟨S32768x10, .i32⟩ : BufTy).Contents (Elt Ideal))
    (n : Fin 32768) (q : Fin 10 → EReal)
    (hq : ∀ k : Fin 10, val_main_v11 (F := Ideal) x0 x1 (ix2 n k) = q k) (j : Fin 9) :
    val_main_v39 (F := Ideal) x0 x1 (ix2 n j) = Cert.Loss.base q j := by
  rw [val_main_v39_apply, val_main_v37_apply, val_main_v38_apply, val_main_v36_apply,
    val_main_cst_11_apply, val_main_cst_10_apply, diff_at x0 x1 n q hq j]
  rfl

/-- The first power at (n, j). -/
theorem pow9_at (x0 : (⟨S32768x1000, .f32⟩ : BufTy).Contents (Elt Ideal)) (x1 : (⟨S32768x10, .i32⟩ : BufTy).Contents (Elt Ideal))
    (n : Fin 32768) (q : Fin 10 → EReal)
    (hq : ∀ k : Fin 10, val_main_v11 (F := Ideal) x0 x1 (ix2 n k) = q k) (j : Fin 9) :
    val_main_v41 (F := Ideal) x0 x1 (ix2 n j) = Ideal.pow (Cert.Loss.base q j) Cert.Loss.nine := by
  rw [val_main_v41_apply, val_main_v40_apply, val_main_cst_12_apply, base_at x0 x1 n q hq j]
  rfl

/-- The first sum at row n: the zero word plus the nine powers. -/
theorem sum9_at (x0 : (⟨S32768x1000, .f32⟩ : BufTy).Contents (Elt Ideal)) (x1 : (⟨S32768x10, .i32⟩ : BufTy).Contents (Elt Ideal))
    (n : Fin 32768) (q : Fin 10 → EReal)
    (hq : ∀ k : Fin 10, val_main_v11 (F := Ideal) x0 x1 (ix2 n k) = q k) :
    val_main_v42 (F := Ideal) x0 x1 (ix1 n)
      = Cert.Loss.zero + ∑ j : Fin 9, Ideal.pow (Cert.Loss.base q j) Cert.Loss.nine := by
  rw [val_main_v42_apply, val_main_cst_13_apply]
  have e : ∀ j : Fin 9, idx_main_v42 (ix1 n) j = ix2 n j := fun j =>
    funext fun a => Fin.ext (by
      match a with
      | ⟨0, _⟩ => rfl
      | ⟨1, _⟩ => rfl)
  simp only [e, pow9_at x0 x1 n q hq]
  rfl

/-- The first mean, rooted and carried back, at row n. -/
theorem sort_at (x0 : (⟨S32768x1000, .f32⟩ : BufTy).Contents (Elt Ideal)) (x1 : (⟨S32768x10, .i32⟩ : BufTy).Contents (Elt Ideal))
    (n : Fin 32768) (q : Fin 10 → EReal)
    (hq : ∀ k : Fin 10, val_main_v11 (F := Ideal) x0 x1 (ix2 n k) = q k) :
    val_main_v50 (F := Ideal) x0 x1 (ix1 n) = Cert.Loss.sortR q := by
  rw [val_main_v50_apply, val_main_v48_apply, val_main_v46_apply, val_main_v44_apply,
    val_main_v49_apply, val_main_v47_apply, val_main_v45_apply, val_main_v43_apply,
    val_main_cst_17_apply, val_main_cst_16_apply, val_main_cst_15_apply, val_main_cst_14_apply,
    sum9_at x0 x1 n q hq]
  rfl

/-- The joined pair's first column at row n is the gap. -/
theorem cat_left (x0 : (⟨S32768x1000, .f32⟩ : BufTy).Contents (Elt Ideal)) (x1 : (⟨S32768x10, .i32⟩ : BufTy).Contents (Elt Ideal))
    (n : Fin 32768) (g : EReal)
    (hg : val_main_v34 (F := Ideal) x0 x1 (ix1 n) = g) :
    val_main_v53 (F := Ideal) x0 x1 (ix2 n (0 : Fin 2)) = g := by
  unfold val_main_v53
  rw [concatenate_pair_apply_left (1 : Fin S32768x2.rank) _ _ Gen.concatenates_S32768x1_S32768x1_S32768x2_d1
    (ix2 n (0 : Fin 2)) rfl (ix2 n (0 : Fin 1)) (fun b => by
      match b with
      | ⟨0, _⟩ => rfl
      | ⟨1, _⟩ => rfl)]
  rw [val_main_v51_apply]
  have e : idx_main_v51 (ix2 n (0 : Fin 1)) = ix1 n :=
    funext fun a => Fin.ext (by
      match a with
      | ⟨0, _⟩ => rfl)
  rw [e, hg]

/-- The joined pair's second column at row n is the first mean carried back. -/
theorem cat_right (x0 : (⟨S32768x1000, .f32⟩ : BufTy).Contents (Elt Ideal)) (x1 : (⟨S32768x10, .i32⟩ : BufTy).Contents (Elt Ideal))
    (n : Fin 32768) (q : Fin 10 → EReal)
    (hq : ∀ k : Fin 10, val_main_v11 (F := Ideal) x0 x1 (ix2 n k) = q k) :
    val_main_v53 (F := Ideal) x0 x1 (ix2 n (1 : Fin 2)) = Cert.Loss.sortR q := by
  unfold val_main_v53
  rw [concatenate_pair_apply_right (1 : Fin S32768x2.rank) _ _ Gen.concatenates_S32768x1_S32768x1_S32768x2_d1
    (ix2 n (1 : Fin 2)) rfl rfl (ix2 n (0 : Fin 1)) (fun b hb => by
      match b, hb with
      | ⟨0, _⟩, _ => rfl
      | ⟨1, _⟩, hb => exact absurd rfl hb) rfl]
  rw [val_main_v52_apply]
  have e : idx_main_v52 (ix2 n (0 : Fin 1)) = ix1 n :=
    funext fun a => Fin.ext (by
      match a with
      | ⟨0, _⟩ => rfl)
  rw [e, sort_at x0 x1 n q hq]

/-- The second power at (n, c), from the joined pair's entry there. -/
theorem pow10_at (x0 : (⟨S32768x1000, .f32⟩ : BufTy).Contents (Elt Ideal)) (x1 : (⟨S32768x10, .i32⟩ : BufTy).Contents (Elt Ideal))
    (n : Fin 32768) (c : Fin 2) (v : EReal)
    (hv : val_main_v53 (F := Ideal) x0 x1 (ix2 n c) = v) :
    val_main_v59 (F := Ideal) x0 x1 (ix2 n c)
      = Ideal.pow (Cert.Loss.five + Cert.Loss.five * v) Cert.Loss.ten := by
  rw [val_main_v59_apply, val_main_v57_apply, val_main_v55_apply, val_main_v58_apply, val_main_v56_apply,
    val_main_v54_apply, val_main_cst_20_apply, val_main_cst_19_apply, val_main_cst_18_apply, hv]
  rfl

/-- The second sum at row n: the zero word plus the two powers. -/
theorem sum2_at (x0 : (⟨S32768x1000, .f32⟩ : BufTy).Contents (Elt Ideal)) (x1 : (⟨S32768x10, .i32⟩ : BufTy).Contents (Elt Ideal))
    (n : Fin 32768) (q : Fin 10 → EReal) (g : EReal)
    (hq : ∀ k : Fin 10, val_main_v11 (F := Ideal) x0 x1 (ix2 n k) = q k)
    (hg : val_main_v34 (F := Ideal) x0 x1 (ix1 n) = g) :
    val_main_v60 (F := Ideal) x0 x1 (ix1 n)
      = Cert.Loss.zero + (Ideal.pow (Cert.Loss.five + Cert.Loss.five * g) Cert.Loss.ten
          + Ideal.pow (Cert.Loss.five + Cert.Loss.five * Cert.Loss.sortR q) Cert.Loss.ten) := by
  rw [val_main_v60_apply, val_main_cst_21_apply, Fin.sum_univ_two]
  have e0 : idx_main_v60 (ix1 n) (0 : Fin 2) = ix2 n (0 : Fin 2) :=
    funext fun a => Fin.ext (by
      match a with
      | ⟨0, _⟩ => rfl
      | ⟨1, _⟩ => rfl)
  have e1 : idx_main_v60 (ix1 n) (1 : Fin 2) = ix2 n (1 : Fin 2) :=
    funext fun a => Fin.ext (by
      match a with
      | ⟨0, _⟩ => rfl
      | ⟨1, _⟩ => rfl)
  rw [e0, e1, pow10_at x0 x1 n 0 g (cat_left x0 x1 n g hg),
    pow10_at x0 x1 n 1 (Cert.Loss.sortR q) (cat_right x0 x1 n q hq)]
  rfl

/-- Entry n of the reference's result from row n's gathered values q and gap g. -/
theorem result_eq (x0 : (⟨S32768x1000, .f32⟩ : BufTy).Contents (Elt Ideal)) (x1 : (⟨S32768x10, .i32⟩ : BufTy).Contents (Elt Ideal))
    (n : Fin 32768) (q : Fin 10 → EReal) (g : EReal)
    (hq : ∀ k : Fin 10, val_main_v11 (F := Ideal) x0 x1 (ix2 n k) = q k)
    (hg : val_main_v34 (F := Ideal) x0 x1 (ix1 n) = g) :
    val_main_v68 (F := Ideal) x0 x1 (ix1 n) = Cert.Loss.tailR q g := by
  rw [val_main_v68_apply, val_main_v66_apply, val_main_v64_apply, val_main_v62_apply,
    val_main_v67_apply, val_main_v65_apply, val_main_v63_apply, val_main_v61_apply,
    val_main_cst_25_apply, val_main_cst_24_apply, val_main_cst_23_apply, val_main_cst_22_apply,
    sum2_at x0 x1 n q g hq hg]
  rfl

end Cert.Loss.RefTail

end
-- ==== Proof.LibStreamSoftmax.lean ====
/-
  The scalar laws behind streaming softmax, on the extended reals with real data. A row's state after
  some key tiles is (μ, exp(−μ)·Z, exp(−μ)·N) for SOME real μ (the running maximum; its being a maximum is
  never used), Z the sum of exp(score) and N the weighted sum so far. A new tile with maximum-so-far μ'
  rescales the old sums by exp(μ − μ') and adds exp(score − μ'): both become exp(−μ')·(old + tile's).
  At the first tile the old maximum is −∞, the rescaling factor exp(−∞ − μ') is 0 and the old sums are 0.
  The final quotient cancels exp(−μ). The two-pass form Σ_k (exp(s_k − M)/Σ_j exp(s_j − M))·v_k cancels
  exp(−M) the same way.
-/
import Idealize.ShloMosaic.PureOps.Ideal
import Mathlib.Analysis.SpecialFunctions.Exp

noncomputable section

namespace Cert.Attn

open Idealize.ShloMosaic

variable {ι : Type} [Fintype ι]

/-- The coercion of a finite real sum is the sum of the coercions. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The f32 word of −∞ denotes ⊥. -/
theorem ofBits_neg_inf : Ideal.ofBits .f32 0xFF800000#32 = (⊥ : EReal) := by
  simp [Ideal.ofBits, Ideal.ieee]

/-- A dot product of real data is real. -/
theorem dot_coe (a b : ι → ℝ) : ∑ d, (a d : EReal) * (b d : EReal) = ((∑ d, a d * b d : ℝ) : EReal) := by
  rw [coe_sum]
  exact Finset.sum_congr rfl (fun d _ => (EReal.coe_mul _ _).symm)

/-- The maximum of finitely many (at least one) reals, folded from −∞, is real. -/
theorem foldmax_real [Nonempty ι] (σ : ι → ℝ) :
    ∃ μ : ℝ, (Finset.univ : Finset ι).fold max (⊥ : EReal) (fun k => (σ k : EReal)) = (μ : EReal) := by
  classical
  have key : ∀ s : Finset ι,
      (s = ∅ ∧ s.fold max (⊥ : EReal) (fun k => (σ k : EReal)) = ⊥)
        ∨ ∃ μ : ℝ, s.fold max (⊥ : EReal) (fun k => (σ k : EReal)) = (μ : EReal) := by
    intro s
    refine Finset.induction_on s ?_ ?_
    · exact Or.inl ⟨rfl, Finset.fold_empty⟩
    · intro a s ha ih
      refine Or.inr ?_
      rw [Finset.fold_insert ha]
      rcases ih with ⟨_, h⟩ | ⟨μ, h⟩
      · exact ⟨σ a, by rw [h, max_bot_right]⟩
      · exact ⟨max (σ a) μ, by rw [h]; exact (EReal.coe_strictMono.monotone.map_max).symm⟩
  rcases key Finset.univ with ⟨h, _⟩ | h
  · exact absurd h (Finset.univ_nonempty.ne_empty)
  · exact h

/-- … and so is its maximum with a real, or with −∞. -/
theorem max_real [Nonempty ι] (μ : ℝ) (σ : ι → ℝ) :
    ∃ μ' : ℝ, max (μ : EReal) ((Finset.univ : Finset ι).fold max (⊥ : EReal) (fun k => (σ k : EReal))) = (μ' : EReal) := by
  obtain ⟨m, h⟩ := foldmax_real σ
  exact ⟨max μ m, by rw [h]; exact (EReal.coe_strictMono.monotone.map_max).symm⟩

theorem max_real_first [Nonempty ι] (σ : ι → ℝ) :
    ∃ μ' : ℝ, max (⊥ : EReal) ((Finset.univ : Finset ι).fold max (⊥ : EReal) (fun k => (σ k : EReal))) = (μ' : EReal) := by
  obtain ⟨m, h⟩ := foldmax_real σ
  exact ⟨m, by rw [h, max_bot_left]⟩

/-- First tile: the factor exp(−∞ − μ') is 0, and it multiplies 0. -/
theorem rescale_first (μ' : ℝ) :
    Ideal.exp ((⊥ : EReal) - (μ' : EReal)) * (0 : EReal) = ((Real.exp (-μ') * 0 : ℝ) : EReal) := by
  rw [mul_zero, mul_zero, EReal.coe_zero]

/-- Later tiles: exp(μ − μ')·(exp(−μ)·Z) = exp(−μ')·Z. -/
theorem rescale (μ μ' Z : ℝ) :
    Ideal.exp ((μ : EReal) - (μ' : EReal)) * ((Real.exp (-μ) * Z : ℝ) : EReal) = ((Real.exp (-μ') * Z : ℝ) : EReal) := by
  rw [← EReal.coe_sub, Ideal.exp_coe, ← EReal.coe_mul, ← mul_assoc, ← Real.exp_add]
  congr 3
  ring

/-- A tile's contribution to the weight sum. -/
theorem tile_den (μ' : ℝ) (σ : ι → ℝ) :
    ∑ c, Ideal.exp ((σ c : EReal) - (μ' : EReal)) = ((Real.exp (-μ') * ∑ c, Real.exp (σ c) : ℝ) : EReal) := by
  rw [Finset.mul_sum, coe_sum]
  refine Finset.sum_congr rfl (fun c _ => ?_)
  rw [← EReal.coe_sub, Ideal.exp_coe, ← Real.exp_add]
  congr 2
  ring

/-- A tile's contribution to the weighted sum of a column. -/
theorem tile_num (μ' : ℝ) (σ v : ι → ℝ) :
    ∑ c, Ideal.exp ((σ c : EReal) - (μ' : EReal)) * (v c : EReal)
      = ((Real.exp (-μ') * ∑ c, Real.exp (σ c) * v c : ℝ) : EReal) := by
  rw [Finset.mul_sum, coe_sum]
  refine Finset.sum_congr rfl (fun c _ => ?_)
  rw [← EReal.coe_sub, Ideal.exp_coe, ← EReal.coe_mul, ← mul_assoc, ← Real.exp_add]
  congr 3
  ring

/-- Rescaled old sum plus the tile's. -/
theorem carry_add (μ' Z T : ℝ) :
    ((Real.exp (-μ') * Z : ℝ) : EReal) + ((Real.exp (-μ') * T : ℝ) : EReal) = ((Real.exp (-μ') * (Z + T) : ℝ) : EReal) := by
  rw [← EReal.coe_add, mul_add]

/-- The final quotient cancels exp(−μ). -/
theorem final_div (μ N Z : ℝ) (hZ : 0 < Z) :
    Ideal.div ((Real.exp (-μ) * N : ℝ) : EReal) ((Real.exp (-μ) * Z : ℝ) : EReal) = ((N / Z : ℝ) : EReal) := by
  have he : Real.exp (-μ) ≠ 0 := (Real.exp_pos _).ne'
  have hne : Real.exp (-μ) * Z ≠ 0 := mul_ne_zero he hZ.ne'
  rw [Ideal.div_coe hne, ← EReal.coe_mul]
  congr 1
  field_simp

/-- The two-pass form of a row: normalise the weights exp(s_k − M) by their sum (added to the initial 0),
    then take the weighted sum of a column. -/
theorem ref_row (M : ℝ) (σ v : ι → ℝ) (hpos : 0 < ∑ j, Real.exp (σ j)) :
    ∑ k, Ideal.div (Ideal.exp ((σ k : EReal) - (M : EReal))) ((0 : EReal) + ∑ j, Ideal.exp ((σ j : EReal) - (M : EReal))) * (v k : EReal)
      = (((∑ k, Real.exp (σ k) * v k) / (∑ k, Real.exp (σ k)) : ℝ) : EReal) := by
  have he : Real.exp (-M) ≠ 0 := (Real.exp_pos _).ne'
  have hne : Real.exp (-M) * ∑ j, Real.exp (σ j) ≠ 0 := mul_ne_zero he hpos.ne'
  rw [zero_add, tile_den, Finset.sum_div, coe_sum]
  refine Finset.sum_congr rfl (fun k _ => ?_)
  rw [Ideal.div_coe hne, ← EReal.coe_sub, Ideal.exp_coe, ← EReal.coe_mul, ← EReal.coe_mul, sub_eq_add_neg,
    Real.exp_add]
  congr 1
  field_simp

end Cert.Attn

end
-- ==== Proof.Softmax.lean ====
/-
  The softmax of a row of real scores is a row of real numbers in (0, 1], so the greatest value outside ten positions and the
  least of the ten picked values are real, and so is their difference.
-/
import proofs.«415077_j32014686224515_3_alg».proof.Proof.Spec
import proofs.«415077_j32014686224515_3_alg».proof.Proof.LibStreamSoftmax
import Mathlib.Data.Fintype.Card
import Mathlib.Data.Finset.Fold
import Mathlib.Data.EReal.Operations
import Mathlib.Algebra.Order.BigOperators.Group.Finset

noncomputable section

namespace Cert.Loss

open Idealize.ShloMosaic

/-! ## The three special words -/

/-- The zero word denotes 0. -/
theorem zero_eq : zero = (0 : EReal) := by
  simp [zero, Ideal.ofBits, Ideal.ieee]

/-- The word 0xFF800000 denotes −∞. -/
theorem negInf_eq : negInf = (⊥ : EReal) := Cert.Attn.ofBits_neg_inf

/-- The word 0x7F800000 denotes +∞. -/
theorem posInf_eq : posInf = (⊤ : EReal) := by
  simp [posInf, Ideal.ofBits, Ideal.ieee]

/-! ## Folds of max and min over rows whose entries are real or −∞ -/

/-- A maximum folded from −∞ over entries each of which is −∞ or real: either every entry met is −∞ and so is
    the fold, or the fold is real. -/
theorem foldmax_bot_or_real {ι : Type} [DecidableEq ι] (f : ι → EReal) (s : Finset ι)
    (hf : ∀ i ∈ s, f i = ⊥ ∨ ∃ r : ℝ, f i = (r : EReal)) :
    (s.fold max (⊥ : EReal) f = ⊥ ∧ ∀ i ∈ s, f i = ⊥) ∨ ∃ r : ℝ, s.fold max (⊥ : EReal) f = (r : EReal) := by
  revert hf
  refine Finset.induction_on s ?_ ?_
  · intro _
    refine Or.inl ⟨Finset.fold_empty, ?_⟩
    intro i hi
    simp at hi
  · intro a s ha ih hf
    rw [Finset.fold_insert ha]
    have hs : ∀ i ∈ s, f i = ⊥ ∨ ∃ r : ℝ, f i = (r : EReal) :=
      fun i hi => hf i (Finset.mem_insert_of_mem hi)
    rcases hf a (Finset.mem_insert_self a s) with hab | ⟨ra, hra⟩
    · -- the new entry is −∞: the state of the fold is unchanged
      rcases ih hs with ⟨hb, hall⟩ | ⟨r, hr⟩
      · refine Or.inl ⟨by rw [hab, hb, max_self], ?_⟩
        intro i hi
        rcases Finset.mem_insert.mp hi with rfl | hi'
        · exact hab
        · exact hall i hi'
      · exact Or.inr ⟨r, by rw [hab, hr, max_bot_left]⟩
    · -- the new entry is real: the fold is real from here on
      refine Or.inr ?_
      rcases ih hs with ⟨hb, _⟩ | ⟨r, hr⟩
      · exact ⟨ra, by rw [hra, hb, max_bot_right]⟩
      · exact ⟨max ra r, by rw [hra, hr]; exact (EReal.coe_strictMono.monotone.map_max).symm⟩

/-- A minimum folded from +∞ over at least one real is real. -/
theorem foldmin_real {ι : Type} [DecidableEq ι] (f : ι → ℝ) (s : Finset ι) (hs : s.Nonempty) :
    ∃ r : ℝ, s.fold min (⊤ : EReal) (fun k => (f k : EReal)) = (r : EReal) := by
  revert hs
  refine Finset.induction_on s ?_ ?_
  · intro h
    exact absurd h Finset.not_nonempty_empty
  · intro a s ha ih _
    rw [Finset.fold_insert ha]
    rcases s.eq_empty_or_nonempty with rfl | hne
    · exact ⟨f a, by rw [Finset.fold_empty, min_top_right]⟩
    · obtain ⟨r, hr⟩ := ih hne
      exact ⟨min (f a) r, by rw [hr]; exact (EReal.coe_strictMono.monotone.map_min).symm⟩

/-! ## The softmax of a real row -/

/-- The greatest score of a real row is real. -/
theorem rowMax_coe (σ : Fin 1000 → ℝ) : ∃ μ : ℝ, rowMax (fun c => (σ c : EReal)) = (μ : EReal) := by
  unfold rowMax
  rw [negInf_eq]
  exact Cert.Attn.foldmax_real σ

/-- Each softmax value of a real row is a real number in (0, 1]. -/
theorem prob_real (x : Fin 1000 → EReal) (hx : ∀ c, ∃ r : ℝ, x c = (r : EReal)) (c : Fin 1000) :
    ∃ p : ℝ, prob x c = (p : EReal) ∧ 0 < p ∧ p ≤ 1 := by
  choose σ hσ using hx
  obtain rfl : x = fun c => (σ c : EReal) := funext hσ
  obtain ⟨μ, hμ⟩ := rowMax_coe σ
  -- every shifted exponential is the real exp(σ_j − μ)
  have hE : ∀ j, expShift (fun c => (σ c : EReal)) j = ((Real.exp (σ j - μ) : ℝ) : EReal) := by
    intro j
    show Ideal.exp ((σ j : EReal) - rowMax (fun c => (σ c : EReal))) = _
    rw [hμ, ← EReal.coe_sub, Ideal.exp_coe]
  -- the denominator is their real sum
  have hD : denom (fun c => (σ c : EReal)) = ((∑ j, Real.exp (σ j - μ) : ℝ) : EReal) := by
    unfold denom
    rw [zero_eq, zero_add, Cert.Attn.coe_sum]
    exact Finset.sum_congr rfl (fun j _ => hE j)
  have hpos : 0 < ∑ j : Fin 1000, Real.exp (σ j - μ) :=
    Finset.sum_pos (fun j _ => Real.exp_pos _) Finset.univ_nonempty
  -- one nonnegative term is at most the whole sum
  have hle : Real.exp (σ c - μ) ≤ ∑ j : Fin 1000, Real.exp (σ j - μ) :=
    Finset.single_le_sum (f := fun j => Real.exp (σ j - μ)) (fun j _ => (Real.exp_pos _).le) (Finset.mem_univ c)
  refine ⟨Real.exp (σ c - μ) * (1 / ∑ j, Real.exp (σ j - μ)), ?_, ?_, ?_⟩
  · unfold prob
    rw [hE, hD, Ideal.div_coe hpos.ne', ← EReal.coe_mul]
  · exact mul_pos (Real.exp_pos _) (one_div_pos.mpr hpos)
  · rw [mul_one_div]
    exact (div_le_one hpos).mpr hle

/-- The gap between the greatest unpicked value and the least picked one is real. -/
theorem gap_real (x : Fin 1000 → EReal) (hx : ∀ c, ∃ r : ℝ, x c = (r : EReal)) (idx : Fin 10 → Fin 1000) :
    ∃ g : ℝ, restMax x idx - pickedMin x idx = (g : EReal) := by
  have hp : ∀ c, ∃ p : ℝ, prob x c = (p : EReal) := fun c => (prob_real x hx c).imp (fun _ h => h.1)
  choose p hp using hp
  -- the least of the ten picked values is real
  have hmin : ∃ m : ℝ, pickedMin x idx = (m : EReal) := by
    unfold pickedMin
    rw [posInf_eq]
    have hpk : picked x idx = fun k => ((p (idx k) : ℝ) : EReal) := funext (fun k => hp (idx k))
    rw [hpk]
    exact foldmin_real (fun k => p (idx k)) Finset.univ Finset.univ_nonempty
  -- ten positions cannot cover a thousand classes
  have hfree : ∃ c : Fin 1000, ¬ ∃ k, idx k = c := by
    by_contra h
    have hsurj : Function.Surjective idx := fun c => by_contra (fun hc => h ⟨c, hc⟩)
    have hcard := Fintype.card_le_of_surjective idx hsurj
    simp at hcard
  -- the greatest of the masked row is real
  have hmax : ∃ r : ℝ, restMax x idx = (r : EReal) := by
    unfold restMax
    rw [negInf_eq]
    have hent : ∀ c ∈ (Finset.univ : Finset (Fin 1000)),
        masked x idx c = ⊥ ∨ ∃ r : ℝ, masked x idx c = (r : EReal) := by
      intro c _
      unfold masked
      by_cases h : ∃ k, idx k = c
      · exact Or.inl (by rw [if_pos h, negInf_eq])
      · exact Or.inr ⟨p c, by rw [if_neg h, hp c]⟩
    rcases foldmax_bot_or_real (masked x idx) Finset.univ hent with ⟨_, hall⟩ | h
    · exfalso
      obtain ⟨c0, hc0⟩ := hfree
      have h1 := hall c0 (Finset.mem_univ c0)
      unfold masked at h1
      rw [if_neg hc0, hp c0] at h1
      exact EReal.coe_ne_bot _ h1
    · exact h
  obtain ⟨m, hm⟩ := hmin
  obtain ⟨r, hr⟩ := hmax
  exact ⟨r - m, by rw [hr, hm, EReal.coe_sub]⟩

end Cert.Loss

end
-- ==== Proof.TailLaw.lean ====
/-
  The two chains of generalized means agree on picked values in [0, 1] and a real gap.
-/
import proofs.«415077_j32014686224515_3_alg».proof.Proof.Spec
import Mathlib.Analysis.SpecialFunctions.Pow.Real

noncomputable section

namespace Cert.Loss

open Idealize.ShloMosaic

/-! ## The literal words as reals -/

/-- The word of `five` denotes the real 5. -/
theorem five_eq : five = ((5 : ℝ) : EReal) := by
  unfold five; simp [Ideal.ofBits, Ideal.ieee, -EReal.coe_mul]; norm_num

/-- The word of `nine` denotes the real 9. -/
theorem nine_eq : nine = ((9 : ℝ) : EReal) := by
  unfold nine; simp [Ideal.ofBits, Ideal.ieee, -EReal.coe_mul]; norm_num

/-- The word of `ten` denotes the real 10. -/
theorem ten_eq : ten = ((10 : ℝ) : EReal) := by
  unfold ten; simp [Ideal.ofBits, Ideal.ieee, -EReal.coe_mul]; norm_num

/-- The word of `two` denotes the real 2. -/
theorem two_eq : two = ((2 : ℝ) : EReal) := by
  unfold two; simp [Ideal.ofBits, Ideal.ieee, -EReal.coe_mul]; norm_num

/-- The zero word denotes 0. -/
theorem zeroWord_eq : zero = 0 := by
  unfold zero; simp [Ideal.ofBits, Ideal.ieee]

/-- The word of `ninth` denotes a positive real (its value is not needed). -/
theorem ninth_pos : ∃ c : ℝ, ninth = (c : EReal) ∧ 0 < c := by
  unfold ninth; simp [Ideal.ofBits, Ideal.ieee, -EReal.coe_mul]

/-- The word of `tenth` denotes a positive real (its value is not needed). -/
theorem tenth_pos : ∃ c : ℝ, tenth = (c : EReal) ∧ 0 < c := by
  unfold tenth; simp [Ideal.ofBits, Ideal.ieee, -EReal.coe_mul]

/-! ## Powers and roots on real arguments -/

/-- The ninth power by squarings of a real is the real ninth power. -/
theorem pow9K_coe (s : ℝ) : pow9K (s : EReal) = ((s ^ 9 : ℝ) : EReal) := by
  unfold pow9K
  simp only [← EReal.coe_mul]
  congr 1; ring

/-- The tenth power by squarings of a real is the real tenth power. -/
theorem pow10K_coe (s : ℝ) : pow10K (s : EReal) = ((s ^ 10 : ℝ) : EReal) := by
  unfold pow10K
  simp only [← EReal.coe_mul]
  congr 1; ring

/-- The real power with exponent 9 of a real is the real ninth power. -/
theorem pow_nine_coe (s : ℝ) : Ideal.pow (s : EReal) nine = ((s ^ 9 : ℝ) : EReal) := by
  rw [nine_eq, Ideal.pow_coe_coe]
  congr 1
  have h : (9 : ℝ) = ((9 : ℕ) : ℝ) := by norm_num
  rw [h]; exact Real.rpow_natCast s 9

/-- The real power with exponent 10 of a real is the real tenth power. -/
theorem pow_ten_coe (s : ℝ) : Ideal.pow (s : EReal) ten = ((s ^ 10 : ℝ) : EReal) := by
  rw [ten_eq, Ideal.pow_coe_coe]
  congr 1
  have h : (10 : ℝ) = ((10 : ℕ) : ℝ) := by norm_num
  rw [h]; exact Real.rpow_natCast s 10

/-- The root law: for a real m ≥ 0 and a real c > 0, exp (log m · c) is the real power m ^ c. At m = 0 the
    logarithm is −∞, the product stays −∞, its exponential is 0, and 0 ^ c = 0. -/
theorem root_law (m c : ℝ) (hm : 0 ≤ m) (hc : 0 < c) :
    Ideal.exp (Ideal.log (m : EReal) * (c : EReal)) = Ideal.pow (m : EReal) (c : EReal) := by
  rw [Ideal.pow_coe_coe, Ideal.log_coe]
  rcases hm.eq_or_lt with h | h
  · subst h
    rw [if_pos le_rfl, EReal.bot_mul_coe_of_pos hc, Ideal.exp_bot]
    have h0 : Real.rpow 0 c = 0 := Real.zero_rpow (ne_of_gt hc)
    rw [h0]; rfl
  · rw [if_neg (not_le.mpr h), ← EReal.coe_mul, Ideal.exp_coe]
    congr 1
    exact (Real.rpow_def_of_pos h c).symm

/-- A finite sum of reals, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## One mean, its root, and the way back -/

/-- For a real sum S ≥ 0, a real count n > 0 and a real exponent c > 0, the root of the mean S / n taken as
    exp (log · c) and taken as the real power are the same real number. -/
theorem mean_root (S n c : ℝ) (hS : 0 ≤ S) (hn : 0 < n) (hc : 0 < c) :
    ∃ r : ℝ, Ideal.exp (Ideal.log (Ideal.div (S : EReal) (n : EReal)) * (c : EReal)) = (r : EReal)
      ∧ Ideal.pow (Ideal.div (S : EReal) (n : EReal)) (c : EReal) = (r : EReal) := by
  have hd : Ideal.div (S : EReal) (n : EReal) = ((S * (1 / n) : ℝ) : EReal) := by
    rw [Ideal.div_coe (ne_of_gt hn), ← EReal.coe_mul]
  have hm : 0 ≤ S * (1 / n) := mul_nonneg hS (by positivity)
  refine ⟨Real.rpow (S * (1 / n)) c, ?_, ?_⟩
  · rw [hd, root_law _ _ hm hc, Ideal.pow_coe_coe]
  · rw [hd, Ideal.pow_coe_coe]

/-- Carrying a real root back by (· − 5)/5 gives a real. -/
theorem carry_back (r : ℝ) :
    Ideal.div ((r : EReal) - five) five = (((r - 5) * (1 / 5) : ℝ) : EReal) := by
  rw [five_eq, Ideal.div_coe (by norm_num : (5 : ℝ) ≠ 0), ← EReal.coe_sub, ← EReal.coe_mul]

/-- A base 5 + 5·x at a real x is the real 5 + 5 x. -/
theorem lift_coe (x : ℝ) : five + five * (x : EReal) = ((5 + 5 * x : ℝ) : EReal) := by
  rw [five_eq, ← EReal.coe_mul, ← EReal.coe_add]

/-- The j-th base of the first mean, at real picked values. -/
theorem base_coe (q : Fin 10 → EReal) (p : Fin 10 → ℝ) (hp : ∀ k, q k = (p k : EReal)) (j : Fin 9) :
    base q j = ((5 + 5 * (p j.succ - p j.castSucc) : ℝ) : EReal) := by
  unfold base
  rw [hp, hp, ← EReal.coe_sub, lift_coe]

/-! ## The first mean -/

/-- With picked values real and in [0, 1], every base of the first mean is a real ≥ 0 (a difference of two
    numbers of [0, 1] is ≥ −1), so the sum of ninth powers is a real ≥ 0 and both chains carry back the same real. -/
theorem sort_eq (q : Fin 10 → EReal) (p : Fin 10 → ℝ) (hp : ∀ k, q k = (p k : EReal))
    (h01 : ∀ k, 0 ≤ p k ∧ p k ≤ 1) :
    ∃ r : ℝ, sortK q = (r : EReal) ∧ sortR q = (r : EReal) := by
  obtain ⟨c, hc, hcpos⟩ := ninth_pos
  have hbase : ∀ j : Fin 9, base q j = ((5 + 5 * (p j.succ - p j.castSucc) : ℝ) : EReal) :=
    fun j => base_coe q p hp j
  have hb0 : ∀ j : Fin 9, 0 ≤ 5 + 5 * (p j.succ - p j.castSucc) := fun j => by
    have h1 := (h01 j.succ).1
    have h2 := (h01 j.castSucc).2
    linarith
  have hS : 0 ≤ ∑ j : Fin 9, (5 + 5 * (p j.succ - p j.castSucc)) ^ 9 :=
    Finset.sum_nonneg (fun j _ => pow_nonneg (hb0 j) 9)
  have hK : (zero + ∑ j, pow9K (base q j))
      = ((∑ j : Fin 9, (5 + 5 * (p j.succ - p j.castSucc)) ^ 9 : ℝ) : EReal) := by
    rw [zeroWord_eq, zero_add, ← coe_sum]
    refine Finset.sum_congr rfl (fun j _ => ?_)
    rw [hbase, pow9K_coe]
  have hR : (zero + ∑ j, Ideal.pow (base q j) nine)
      = ((∑ j : Fin 9, (5 + 5 * (p j.succ - p j.castSucc)) ^ 9 : ℝ) : EReal) := by
    rw [zeroWord_eq, zero_add, ← coe_sum]
    refine Finset.sum_congr rfl (fun j _ => ?_)
    rw [hbase, pow_nine_coe]
  obtain ⟨r, h1, h2⟩ := mean_root _ 9 c hS (by norm_num) hcpos
  refine ⟨(r - 5) * (1 / 5), ?_, ?_⟩
  · unfold sortK
    rw [hK, nine_eq, hc, h1, carry_back]
  · unfold sortR
    rw [hR, nine_eq, hc, h2, carry_back]

/-! ## The whole chain -/

/-- With every picked value a real in [0, 1] and a real gap, the multiplying chain and the real-power chain are one number. -/
theorem tailK_eq_tailR (q : Fin 10 → EReal) (g : EReal)
    (hq : ∀ k, ∃ p : ℝ, q k = (p : EReal) ∧ 0 ≤ p ∧ p ≤ 1) (hg : ∃ r : ℝ, g = (r : EReal)) :
    tailK q g = tailR q g := by
  choose p hp using hq
  obtain ⟨rg, hrg⟩ := hg
  obtain ⟨s, hsK, hsR⟩ := sort_eq q p (fun k => (hp k).1) (fun k => (hp k).2)
  obtain ⟨c, hc, hcpos⟩ := tenth_pos
  -- tenth powers of reals are ≥ 0, so the second mean is that of a real sum ≥ 0
  have hA : 0 ≤ (5 + 5 * rg) ^ 10 + (5 + 5 * s) ^ 10 := by positivity
  obtain ⟨r, h1, h2⟩ := mean_root _ 2 c hA (by norm_num) hcpos
  unfold tailK tailR
  rw [hsK, hsR, hrg, lift_coe, lift_coe, pow10K_coe, pow10K_coe, pow_ten_coe, pow_ten_coe, zeroWord_eq, zero_add,
    ← EReal.coe_add, two_eq, hc, h1, h2]

end Cert.Loss

end
-- ==== Proof.RowLaw.lean ====
/-
  A row's loss by either chain, for a row of real scores.
-/
import proofs.«415077_j32014686224515_3_alg».proof.Proof.Softmax
import proofs.«415077_j32014686224515_3_alg».proof.Proof.TailLaw

noncomputable section

namespace Cert.Loss

/-- For real scores the two chains give one loss: the picked softmax values lie in (0, 1] and the gap is real. -/
theorem rowK_eq_rowR (x : Fin 1000 → EReal) (hx : ∀ c, ∃ r : ℝ, x c = (r : EReal)) (idx : Fin 10 → Fin 1000) :
    rowK x idx = rowR x idx :=
  tailK_eq_tailR _ _
    (fun k => by
      obtain ⟨p, hp, h0, h1⟩ := prob_real x hx (idx k)
      exact ⟨p, hp, h0.le, h1⟩)
    (gap_real x hx idx)

end Cert.Loss

end
-- ==== Proof.PreDecode.lean ====
/-
  What the precondition says of the arguments: every score is a real number and every position word is a lane below 1000.
-/
import proofs.«415077_j32014686224515_3_alg».proof.Pre_finite_inputs
import proofs.«415077_j32014686224515_3_alg».proof.Proof.Gen.Pre_finite_inputs
import Idealize.ShloMosaic.PureOps.Ideal
import Idealize.ShloMosaic.Lib.ReduceAll

noncomputable section

namespace Cert.Loss.PreDecode

open Idealize.ShloMosaic Cert.Pre_finite_inputs

/-- The rank-0 shape has one index. -/
instance : Subsingleton S_.Idx := ⟨fun a b => funext fun d => d.elim0⟩

/-- The word 0x7F800000 is +∞. -/
theorem posInf_word : Ideal.ofBits .f32 0x7F800000#32 = (⊤ : EReal) := by simp [Ideal.ofBits, Ideal.ieee]

/-- An extended real whose absolute value max x (−x) is below +∞ is a real: at −∞ and at +∞ the maximum is +∞. -/
theorem real_of_abs_lt_top (x : EReal)
    (h : Ideal.cmp .olt (max x (-x)) (Ideal.ofBits .f32 0x7F800000#32) = 1#1) : ∃ r : ℝ, x = (r : EReal) := by
  rw [posInf_word] at h
  induction x using EReal.rec with
  | bot => simp [Ideal.cmp] at h
  | coe r => exact ⟨r, rfl⟩
  | top => simp [Ideal.cmp] at h

/-- A word that is signed-nonnegative and signed-below 1000 has its top bit clear, so its unsigned value is its signed
    value, below 1000. -/
theorem toNat_lt_of_range (a : BitVec 32) (h0 : IntOp.cmpi .sge a 0#32 = 1#1) (h1 : IntOp.cmpi .slt a 1000#32 = 1#1) :
    a.toNat < 1000 := by
  rw [IntOp.cmpi_sge, show (0#32 : BitVec 32).toInt = 0 from by decide] at h0
  rw [IntOp.cmpi_slt, show (1000#32 : BitVec 32).toInt = 1000 from by decide] at h1
  rw [BitVec.toInt_eq_toNat_cond] at h0 h1
  have hlt := a.isLt
  split at h0 <;> omega

/-- From the printed predicate being all ones: finite scores, and positions in [0, 1000) read as naturals. -/
theorem of_pre (X : FVec Ideal S32768x1000 .f32) (A : IVec S32768x10 32)
    (h : Cert.Pre_finite_inputs.fn (F := Ideal) X A = fun _ => 1#1) :
    (∀ i, ∃ r : ℝ, X i = (r : EReal)) ∧ (∀ i, (A i).toNat < 1000) := by
  have h0 := congrFun h (fun a => a.elim0)
  dsimp only [Cert.Pre_finite_inputs.fn] at h0
  obtain ⟨h12, h3⟩ := IntOp.andi_eq_one.1 h0
  obtain ⟨h1, h2⟩ := IntOp.andi_eq_one.1 h12
  refine ⟨fun i => ?_, fun i => ?_⟩
  · exact real_of_abs_lt_top (X i) (Host.reduce_andi_all _ _ _ _ _ h1 i)
  · exact toNat_lt_of_range (A i) (Host.reduce_andi_all _ _ _ _ _ h2 i) (Host.reduce_andi_all _ _ _ _ _ h3 i)

end Cert.Loss.PreDecode

end
-- ==== Proof.lean ====
/-
  Kernel and reference compute, for each of 32768 rows, one loss from the row's 1000 scores x and ten class positions a.

  Both take the softmax p_c = exp(x_c − max x) / Σ_c exp(x_c − max x) of the row. The kernel reads p at position a_k as the lane
  sum Σ_c [c = a_k]·p_c and the reference gathers it; for a position in [0, 1000) the sum has exactly one nonzero term, p at a_k,
  and the gather's range test passes. The greatest p outside the ten positions is a maximum over the row with those positions sent
  to −∞: the kernel overwrites lane by lane, the reference scatters a flag and selects; the two rows are the same. The least picked
  value and the difference follow alike. From there the loss is a chain of two generalized means, the first over nine ninth powers
  of 5 + 5·(p at a_{k+1} − p at a_k), the second over the tenth powers of 5 + 5·gap and 5 + 5·(first mean carried back); the kernel multiplies
  the powers out and roots by exp(log m · c), the reference takes real powers. A softmax value of real scores is a real number in
  (0, 1], so every base is a nonnegative real and every mean is a nonnegative real; there x⁹ and x¹⁰ are the real powers, and
  exp(log m · c) is m to the power c (both are 0 at m = 0, as c > 0). Finite scores and positions in range are the precondition.
-/
import proofs.«415077_j32014686224515_3_alg».proof.Defs
import proofs.«415077_j32014686224515_3_alg».proof.Proof.Gen.Kernel.Frame
import proofs.«415077_j32014686224515_3_alg».proof.Proof.Gen.KernelIdeal.Frame
import proofs.«415077_j32014686224515_3_alg».proof.Proof.Gen.ReferenceIdeal
import proofs.«415077_j32014686224515_3_alg».proof.Proof.Gen.Pre_finite_inputs
import proofs.«415077_j32014686224515_3_alg».proof.Proof.RefRun
import proofs.«415077_j32014686224515_3_alg».proof.Proof.RefRead
import proofs.«415077_j32014686224515_3_alg».proof.Proof.RefRunEq
import proofs.«415077_j32014686224515_3_alg».proof.Proof.KernelArray
import proofs.«415077_j32014686224515_3_alg».proof.Proof.RefStage
import proofs.«415077_j32014686224515_3_alg».proof.Proof.RefTail
import proofs.«415077_j32014686224515_3_alg».proof.Proof.RowLaw
import proofs.«415077_j32014686224515_3_alg».proof.Proof.PreDecode

noncomputable section

namespace Cert.Proof

open Idealize.ShloMosaic Idealize.SL.Sem Idealize.ShloMosaic.ValueIdx

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Entry n of both results is one number: the reference's is the real-power chain of row n's picked softmax values and gap, the
    kernel's the multiplying chain of the same, and for real scores the two chains agree. -/
theorem algebraic : Cert.algebraic_KernelIdeal_ReferenceIdeal := by
  intro m ρ m' ρ' hpre hagree
  refine ⟨fun c => Cert.Loss.KernelArray.result m c, Cert.Loss.KernelArray.run m ρ, ?_⟩
  refine (θ_run Cert.ReferenceIdeal.defs _ _).mono (fun _ h c => ⟨(h c).1.trans ?_, (h c).2⟩)
    (Cert.ReferenceIdeal.ValueP.run (F := Ideal) m' ρ')
  rw [Cert.Loss.RefRunEq.res_eq, (hagree c).1, (hagree c).2]
  obtain ⟨hreal, hlane⟩ := Cert.Loss.PreDecode.of_pre _ _ (hpre c)
  funext i
  obtain ⟨n, rfl⟩ : ∃ n : Fin 32768, i = ix1 n := ⟨i 0, eq_ix1 i⟩
  have hidx : ∀ k : Fin 10,
      (m ((c.tc : Thread Cert.KernelIdeal.nD Cert.KernelIdeal.τ).loc Cert.KernelIdeal.main_arg1) : Cert.KernelIdeal.S32768x10.Idx → BitVec 32) (ix2 n k)
        = BitVec.ofNat 32 ((⟨_, hlane (ix2 n k)⟩ : Fin 1000)).val := fun k =>
    BitVec.eq_of_toNat_eq (by rw [BitVec.toNat_ofNat, Nat.mod_eq_of_lt (BitVec.isLt _)])
  rw [Cert.Loss.RefTail.result_eq _ _ n _ _
      (fun k => Cert.Loss.RefStage.picked_eq _ _ n (fun k => ⟨_, hlane (ix2 n k)⟩) hidx k)
      (Cert.Loss.RefStage.gap_eq _ _ n (fun k => ⟨_, hlane (ix2 n k)⟩) hidx)]
  refine Eq.trans ?_ (Cert.Loss.KernelArray.result_row m c n (fun k => ⟨_, hlane (ix2 n k)⟩) hidx).symm
  exact (Cert.Loss.rowK_eq_rowR _ (fun col => hreal _) _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
